-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x512 : Shape := ⟨2, ![25000, 512]⟩
abbrev S2x200000 : Shape := ⟨2, ![2, 200000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S25000x512 : S_.BroadcastsInDim S25000x512 (![] : Fin 0 → Fin S25000x512.rank)
  reducesTo_S25000x512_S_d0_1 : S25000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S512x1 .f32) (main_arg9 : FVec F S1 .f32) (main_v33 : IVec S_ 1) : IVec S_ 1 :=
  let main_v34 : FVec F S512x1 .f32 := Host.absf main_arg8
  let main_cst_12 : FVec F S_ .f32 := constant S_ .f32 0x7F800000#32
  let main_v35 : FVec F S512x1 .f32 := broadcastInDim S512x1 ![] bcast_S_S512x1 main_cst_12
  let main_v36 : IVec S512x1 1 := cmpf .olt main_v34 main_v35
  let main_c_13 : IVec S_ 1 := constantI S_ 1 1#1
  let main_v37 : IVec S_ 1 := (fun x v => Host.reduce IntOp.andi x v reducesTo_S512x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S512 .f32) (main_arg6 : FVec F S512x1 .f32) (main_arg7 : FVec F S1 .f32) (main_arg8 : FVec F S512x1 .f32) (main_arg9 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1 .f32 := Host.absf main_arg6
  let main_cst_8 : FVec F S_ .f32 := constant S_ .f32 0x7F800000#32
  let main_v25 : FVec F S512x1 .f32 := broadcastInDim S512x1 ![] bcast_S_S512x1 main_cst_8
  let main_v26 : IVec S512x1 1 := cmpf .olt main_v24 main_v25
  let main_c_9 : IVec S_ 1 := constantI S_ 1 1#1
  let main_v27 : IVec S_ 1 := (fun x v => Host.reduce IntOp.andi x v reducesTo_S512x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_v33

def fn {F : FTy → Type} [FloatOps F] (main_arg0 : FVec F S25000x512 .f32) (main_arg1 : IVec S2x200000 32) (main_arg2 : FVec F S512x512 .f32) (main_arg3 : FVec F S512 .f32) (main_arg4 : FVec F S512x512 .f32) (main_arg5 : FVec F S512 .f32) (main_arg6 : FVec F S512x1 .f32) (main_arg7 : FVec F S1 .f32) (main_arg8 : FVec F S512x1 .f32) (main_arg9 : FVec F S1 .f32) : IVec S_ 1 :=
  let main_v0 : FVec F S25000x512 .f32 := Host.absf main_arg0
  let main_cst : FVec F S_ .f32 := constant S_ .f32 0x7F800000#32
  let main_v1 : FVec F S25000x512 .f32 := broadcastInDim S25000x512 ![] bcast_S_S25000x512 main_cst
  let main_v2 : IVec S25000x512 1 := cmpf .olt main_v0 main_v1
  let main_c : IVec S_ 1 := constantI S_ 1 1#1
  let main_v3 : IVec S_ 1 := (fun x v => Host.reduce IntOp.andi x v reducesTo_S25000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_v13 main_v16
-- ==== Kernel.lean ====
abbrev S25000x512 : Shape := ⟨2, ![25000, 512]⟩
abbrev S2x200000 : Shape := ⟨2, ![2, 200000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x200000 : Shape := ⟨2, ![1, 200000]⟩
abbrev S200000 : Shape := ⟨1, ![200000]⟩
abbrev S_ : Shape := ⟨0, ![]⟩
abbrev S25000 : Shape := ⟨1, ![25000]⟩
abbrev S200000x1 : Shape := ⟨2, ![200000, 1]⟩
abbrev S25000x1 : Shape := ⟨2, ![25000, 1]⟩
abbrev S1000x512 : Shape := ⟨2, ![1000, 512]⟩
abbrev S200000x512 : Shape := ⟨2, ![200000, 512]⟩
abbrev S1x512 : Shape := ⟨2, ![1, 512]⟩
abbrev S1000x1 : Shape := ⟨2, ![1000, 1]⟩
abbrev S1x1 : Shape := ⟨2, ![1, 1]⟩

abbrev nBuf : Space → Nat
  | .hbm => 93
  | .vmem => 28
  | .smem => 0
  | _ => 0

abbrev bufTy : (tb : Table) → Fin (tcTables nBuf tb) → BufTy
  | .hbm, ⟨0, _⟩ => ⟨S25000x512, .f32⟩
  | .hbm, ⟨1, _⟩ => ⟨S2x200000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S512x1, .f32⟩
  | .hbm, ⟨9, _⟩ => ⟨S1, .f32⟩
  | .hbm, ⟨10, _⟩ => ⟨S1x200000, .i32⟩
  | .hbm, ⟨11, _⟩ => ⟨S200000, .i32⟩
  | .hbm, ⟨12, _⟩ => ⟨S1x200000, .i32⟩
  | .hbm, ⟨13, _⟩ => ⟨S200000, .i32⟩
  | .hbm, ⟨14, _⟩ => ⟨S_, .f32⟩
  | .hbm, ⟨15, _⟩ => ⟨S200000, .f32⟩
  | .hbm, ⟨16, _⟩ => ⟨S_, .f32⟩
  | .hbm, ⟨17, _⟩ => ⟨S25000, .f32⟩
  | .hbm, ⟨18, _⟩ => ⟨S200000x1, .i32⟩
  | .hbm, ⟨19, _⟩ => ⟨S25000, .f32⟩
  | .hbm, ⟨20, _⟩ => ⟨S_, .f32⟩
  | .hbm, ⟨21, _⟩ => ⟨S25000, .f32⟩
  | .hbm, ⟨22, _⟩ => ⟨S25000, .f32⟩
  | .hbm, ⟨23, _⟩ => ⟨S25000, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000, .f32⟩
  | .hbm, ⟨33, _⟩ => ⟨S_, .i32⟩
  | .hbm, ⟨34, _⟩ => ⟨S200000, .i32⟩
  | .hbm, ⟨35, _⟩ => ⟨S200000, .i1⟩
  | .hbm, ⟨36, _⟩ => ⟨S_, .i32⟩
  | .hbm, ⟨37, _⟩ => ⟨S200000, .i32⟩
  | .hbm, ⟨38, _⟩ => ⟨S200000, .i32⟩
  | .hbm, ⟨39, _⟩ => ⟨S200000, .i32⟩
  | .hbm, ⟨40, _⟩ => ⟨S200000x1, .i32⟩
  | .hbm, ⟨41, _⟩ => ⟨S200000, .f32⟩
  | .hbm, ⟨42, _⟩ => ⟨S200000, .f32⟩
  | .hbm, ⟨43, _⟩ => ⟨S25000, .f32⟩
  | .hbm, ⟨44, _⟩ => ⟨S25000x1, .f32⟩
  | .hbm, ⟨45, _⟩ => ⟨S25000x512, .f32⟩
  | .hbm, ⟨46, _⟩ => ⟨S_, .i32⟩
  | .hbm, ⟨47, _⟩ => ⟨S200000, .i32⟩
  | .hbm, ⟨48, _⟩ => ⟨S200000, .i1⟩
  | .hbm, ⟨49, _⟩ => ⟨S_, .i32⟩
  | .hbm, ⟨50, _⟩ => ⟨S200000, .i32⟩
  | .hbm, ⟨51, _⟩ => ⟨S200000, .i32⟩
  | .hbm, ⟨52, _⟩ => ⟨S200000, .i32⟩
  | .hbm, ⟨53, _⟩ => ⟨S200000x1, .i32⟩
  | .hbm, ⟨54, _⟩ => ⟨S200000x512, .f32⟩
  | .hbm, ⟨55, _⟩ => ⟨S200000x1, .f32⟩
  | .hbm, ⟨56, _⟩ => ⟨S200000x512, .f32⟩
  | .hbm, ⟨57, _⟩ => ⟨S200000x512, .f32⟩
  | .hbm, ⟨58, _⟩ => ⟨S_, .f32⟩
  | .hbm, ⟨59, _⟩ => ⟨S25000x512, .f32⟩
  | .hbm, ⟨60, _⟩ => ⟨S200000x1, .i32⟩
  | .hbm, ⟨61, _⟩ => ⟨S25000x512, .f32⟩
  | .hbm, ⟨62, _⟩ => ⟨S1x512, .f32⟩
  | .hbm, ⟨63, _⟩ => ⟨S25000x512, .f32⟩
  | .hbm, ⟨64, _⟩ => ⟨S25000x512, .f32⟩
  | .hbm, ⟨65, _⟩ => ⟨S_, .i32⟩
  | .hbm, ⟨66, _⟩ => ⟨S200000, .i32⟩
  | .hbm, ⟨67, _⟩ => ⟨S200000, .i1⟩
  | .hbm, ⟨68, _⟩ => ⟨S_, .i32⟩
  | .hbm, ⟨69, _⟩ => ⟨S200000, .i32⟩
  | .hbm, ⟨70, _⟩ => ⟨S200000, .i32⟩
  | .hbm, ⟨71, _⟩ => ⟨S200000, .i32⟩
  | .hbm, ⟨72, _⟩ => ⟨S200000x1, .i32⟩
  | .hbm, ⟨73, _⟩ => ⟨S200000x512, .f32⟩
  | .hbm, ⟨74, _⟩ => ⟨S200000x1, .f32⟩
  | .hbm, ⟨75, _⟩ => ⟨S200000x512, .f32⟩
  | .hbm, ⟨76, _⟩ => ⟨S200000x512, .f32⟩
  | .hbm, ⟨77, _⟩ => ⟨S_, .f32⟩
  | .hbm, ⟨78, _⟩ => ⟨S25000x512, .f32⟩
  | .hbm, ⟨79, _⟩ => ⟨S200000x1, .i32⟩
  | .hbm, ⟨80, _⟩ => ⟨S25000x512, .f32⟩
  | .hbm, ⟨81, _⟩ => ⟨S1x512, .f32⟩
  | .hbm, ⟨82, _⟩ => ⟨S25000x512, .f32⟩
  | .hbm, ⟨83, _⟩ => ⟨S25000x1, .f32⟩
  | .hbm, ⟨84, _⟩ => ⟨S1x1, .f32⟩
  | .hbm, ⟨85, _⟩ => ⟨S25000x1, .f32⟩
  | .hbm, ⟨86, _⟩ => ⟨S25000x1, .f32⟩
  | .hbm, ⟨87, _⟩ => ⟨S25000, .f32⟩
  | .hbm, ⟨88, _⟩ => ⟨S25000x1, .f32⟩
  | .hbm, ⟨89, _⟩ => ⟨S1x1, .f32⟩
  | .hbm, ⟨90, _⟩ => ⟨S25000x1, .f32⟩
  | .hbm, ⟨91, _⟩ => ⟨S25000x1, .f32⟩
  | .hbm, ⟨92, _⟩ => ⟨S25000, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1000x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S1000x1, .f32⟩
  | .local _ .vmem, ⟨10, _⟩ => ⟨S1000x1, .f32⟩
  | .local _ .vmem, ⟨11, _⟩ => ⟨S1x512, .f32⟩
  | .local _ .vmem, ⟨12, _⟩ => ⟨S1000x512, .f32⟩
  | .local _ .vmem, ⟨13, _⟩ => ⟨S1000x512, .f32⟩
  | .local _ .vmem, ⟨14, _⟩ => ⟨S1000x512, .f32⟩
  | .local _ .vmem, ⟨15, _⟩ => ⟨S1000x512, .f32⟩
  | .local _ .vmem, ⟨16, _⟩ => ⟨S512x512, .f32⟩
  | .local _ .vmem, ⟨17, _⟩ => ⟨S1000x512, .f32⟩
  | .local _ .vmem, ⟨18, _⟩ => ⟨S1000x512, .f32⟩
  | .local _ .vmem, ⟨19, _⟩ => ⟨S1000x512, .f32⟩
  | .local _ .vmem, ⟨20, _⟩ => ⟨S1000x512, .f32⟩
  | .local _ .vmem, ⟨21, _⟩ => ⟨S1000x512, .f32⟩
  | .local _ .vmem, ⟨22, _⟩ => ⟨S1000x512, .f32⟩
  | .local _ .vmem, ⟨23, _⟩ => ⟨S1000x1, .f32⟩
  | .local _ .vmem, ⟨24, _⟩ => ⟨S1000x1, .f32⟩
  | .local _ .vmem, ⟨25, _⟩ => ⟨S1x512, .f32⟩
  | .local _ .vmem, ⟨26, _⟩ => ⟨S1000x512, .f32⟩
  | .local _ .vmem, ⟨27, _⟩ => ⟨S1000x512, .f32⟩
  | _, _ => ⟨S25000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S_S25000 : S_.BroadcastsInDim S25000 (![] : Fin 0 → Fin S25000.rank)
  bcast_S200000_S200000x1_0 : S200000.BroadcastsInDim S200000x1 (![0] : Fin 1 → Fin S200000x1.rank)
  shapeCasts_S25000_S25000x1 : S25000.ShapeCasts S25000x1
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  bcast_S200000x1_S200000x512_0_1 : S200000x1.BroadcastsInDim S200000x512 (![0, 1] : Fin 2 → Fin S200000x512.rank)
  bcast_S_S25000x512 : S_.BroadcastsInDim S25000x512 (![] : Fin 0 → Fin S25000x512.rank)
  shapeCasts_S512_S1x512 : S512.ShapeCasts S1x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  shapeCasts_S1000x512_S1000x512 : S1000x512.ShapeCasts S1000x512
  bcast_S1_S1x1_1 : S1.BroadcastsInDim S1x1 (![1] : Fin 1 → Fin S1x1.rank)
  bcast_S1x1_S25000x1_0_1 : S1x1.BroadcastsInDim S25000x1 (![0, 1] : Fin 2 → Fin S25000x1.rank)
  shapeCasts_S25000x1_S25000 : S25000x1.ShapeCasts S25000
  scatter_S25000_S200000x1_S200000_n_0_0_1_wf : ScatterDims.WF S25000 S200000x1 S200000 [] [0] [0] 1
  gather_S25000_S200000x1_S200000_n_0_n_n_0_1_1_wf : GatherDims.WF S25000 S200000x1 S200000 [] [0] [] [0] [] 1 ![1]
  dot_S1000x512_S512x512_S1000x512_1_0_0_1_n_n_wf : DotDims.WF S1000x512 S512x512 S1000x512 [1] [0] [0] [1] [] []
  gather_S25000x512_S200000x1_S200000x512_1_0_n_n_0_1_1512_wf : GatherDims.WF S25000x512 S200000x1 S200000x512 [1] [0] [] [0] [] 1 ![1, 512]
  scatter_S25000x512_S200000x1_S200000x512_1_0_0_1_wf : ScatterDims.WF S25000x512 S200000x1 S200000x512 [1] [0] [0] 1
  dot_S25000x512_S512x1_S25000x1_1_0_0_1_n_n_wf : DotDims.WF S25000x512 S512x1 S25000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S25000x512.size a
  hwx0_0 : ∀ i : grid0.Coords, EltTy.bits .f32 = 32 ∨ (Rect.block (s := S25000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S25000x512.size a
  hwx0_2 : ∀ i : grid0.Coords, EltTy.bits .f32 = 32 ∨ (Rect.block (s := S25000x512) S1000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S25000x512.size a
  hwx1_0 : ∀ i : grid1.Coords, EltTy.bits .f32 = 32 ∨ (Rect.block (s := S25000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S25000x512.size a
  hwx1_1 : ∀ i : grid1.Coords, EltTy.bits .f32 = 32 ∨ (Rect.block (s := S25000x512) S1000x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S25000x1.size a
  hwx1_2 : ∀ i : grid1.Coords, EltTy.bits .f32 = 32 ∨ (Rect.block (s := S25000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x512.size a ≤ S25000x512.size a
  hwx1_4 : ∀ i : grid1.Coords, EltTy.bits .f32 = 32 ∨ (Rect.block (s := S25000x512) S1000x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S25000x512.size a
  hwx2_0 : ∀ i : grid2.Coords, EltTy.bits .f32 = 32 ∨ (Rect.block (s := S25000x512) S1000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x512.size a ≤ S25000x512.size a
  hwx2_2 : ∀ i : grid2.Coords, EltTy.bits .f32 = 32 ∨ (Rect.block (s := S25000x512) S1000x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S25000x512.size a
  hwx3_0 : ∀ i : grid3.Coords, EltTy.bits .f32 = 32 ∨ (Rect.block (s := S25000x512) S1000x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x512.size a ≤ S25000x512.size a
  hwx3_1 : ∀ i : grid3.Coords, EltTy.bits .f32 = 32 ∨ (Rect.block (s := S25000x512) S1000x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x1.size a ≤ S25000x1.size a
  hwx3_2 : ∀ i : grid3.Coords, EltTy.bits .f32 = 32 ∨ (Rect.block (s := S25000x1) S1000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x512.size a ≤ S25000x512.size a
  hwx3_4 : ∀ i : grid3.Coords, EltTy.bits .f32 = 32 ∨ (Rect.block (s := S25000x512) S1000x512.size (cc3_transform_4 i) (hinb3_4 i)).WholeWords (EltTy.packing .f32)

variable [Facts₀]

def scatter_S25000_S200000x1_S200000_n_0_0_1 : ScatterDims S25000 S200000x1 S200000 where
  updateWindowDims := []
  insertedWindowDims := [0]
  scatterDimsToOperandDims := [0]
  indexVectorDim := 1
  wf := scatter_S25000_S200000x1_S200000_n_0_0_1_wf
def gather_S25000_S200000x1_S200000_n_0_n_n_0_1_1 : GatherDims S25000 S200000x1 S200000 where
  offsetDims := []
  collapsedSliceDims := [0]
  operandBatchingDims := []
  startIndicesBatchingDims := []
  startIndexMap := [0]
  indexVectorDim := 1
  sliceSizes := ![1]
  wf := gather_S25000_S200000x1_S200000_n_0_n_n_0_1_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S25000x512_S200000x1_S200000x512_1_0_n_n_0_1_1512 : GatherDims S25000x512 S200000x1 S200000x512 where
  offsetDims := [1]
  collapsedSliceDims := [0]
  operandBatchingDims := []
  startIndicesBatchingDims := []
  startIndexMap := [0]
  indexVectorDim := 1
  sliceSizes := ![1, 512]
  wf := gather_S25000x512_S200000x1_S200000x512_1_0_n_n_0_1_1512_wf
def scatter_S25000x512_S200000x1_S200000x512_1_0_0_1 : ScatterDims S25000x512 S200000x1 S200000x512 where
  updateWindowDims := [1]
  insertedWindowDims := [0]
  scatterDimsToOperandDims := [0]
  indexVectorDim := 1
  wf := scatter_S25000x512_S200000x1_S200000x512_1_0_0_1_wf
def dot_S25000x512_S512x1_S25000x1_1_0_0_1_n_n : DotDims S25000x512 S512x1 S25000x1 where
  lhsContracting := [1]
  rhsContracting := [0]
  lhsNonContracting := [0]
  rhsNonContracting := [1]
  lhsBatch := []
  rhsBatch := []
  wf := dot_S25000x512_S512x1_S25000x1_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1000x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S1000x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S1000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1000x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S25000x512 : Shape := ⟨2, ![25000, 512]⟩
abbrev S2x200000 : Shape := ⟨2, ![2, 200000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x200000 : Shape := ⟨2, ![1, 200000]⟩
abbrev S200000 : Shape := ⟨1, ![200000]⟩
abbrev S_ : Shape := ⟨0, ![]⟩
abbrev S25000 : Shape := ⟨1, ![25000]⟩
abbrev S200000x1 : Shape := ⟨2, ![200000, 1]⟩
abbrev S200000x512 : Shape := ⟨2, ![200000, 512]⟩
abbrev S25000x1 : Shape := ⟨2, ![25000, 1]⟩
abbrev S1x512 : Shape := ⟨2, ![1, 512]⟩
abbrev S1x1 : Shape := ⟨2, ![1, 1]⟩

abbrev nBuf : Space → Nat
  | .hbm => 109
  | .vmem => 0
  | .smem => 0
  | _ => 0

abbrev bufTy : (tb : Table) → Fin (tcTables nBuf tb) → BufTy
  | .hbm, ⟨0, _⟩ => ⟨S25000x512, .f32⟩
  | .hbm, ⟨1, _⟩ => ⟨S2x200000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S512x1, .f32⟩
  | .hbm, ⟨9, _⟩ => ⟨S1, .f32⟩
  | .hbm, ⟨10, _⟩ => ⟨S1x200000, .i32⟩
  | .hbm, ⟨11, _⟩ => ⟨S200000, .i32⟩
  | .hbm, ⟨12, _⟩ => ⟨S1x200000, .i32⟩
  | .hbm, ⟨13, _⟩ => ⟨S200000, .i32⟩
  | .hbm, ⟨14, _⟩ => ⟨S_, .f32⟩
  | .hbm, ⟨15, _⟩ => ⟨S200000, .f32⟩
  | .hbm, ⟨16, _⟩ => ⟨S_, .f32⟩
  | .hbm, ⟨17, _⟩ => ⟨S25000, .f32⟩
  | .hbm, ⟨18, _⟩ => ⟨S200000x1, .i32⟩
  | .hbm, ⟨19, _⟩ => ⟨S25000, .f32⟩
  | .hbm, ⟨20, _⟩ => ⟨S_, .f32⟩
  | .hbm, ⟨21, _⟩ => ⟨S25000, .f32⟩
  | .hbm, ⟨22, _⟩ => ⟨S25000, .f32⟩
  | .hbm, ⟨23, _⟩ => ⟨S25000, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000, .f32⟩
  | .hbm, ⟨33, _⟩ => ⟨S_, .i32⟩
  | .hbm, ⟨34, _⟩ => ⟨S200000, .i32⟩
  | .hbm, ⟨35, _⟩ => ⟨S200000, .i1⟩
  | .hbm, ⟨36, _⟩ => ⟨S_, .i32⟩
  | .hbm, ⟨37, _⟩ => ⟨S200000, .i32⟩
  | .hbm, ⟨38, _⟩ => ⟨S200000, .i32⟩
  | .hbm, ⟨39, _⟩ => ⟨S200000, .i32⟩
  | .hbm, ⟨40, _⟩ => ⟨S200000x1, .i32⟩
  | .hbm, ⟨41, _⟩ => ⟨S200000, .f32⟩
  | .hbm, ⟨42, _⟩ => ⟨S200000, .f32⟩
  | .hbm, ⟨43, _⟩ => ⟨S25000x512, .f32⟩
  | .hbm, ⟨44, _⟩ => ⟨S_, .i32⟩
  | .hbm, ⟨45, _⟩ => ⟨S200000, .i32⟩
  | .hbm, ⟨46, _⟩ => ⟨S200000, .i1⟩
  | .hbm, ⟨47, _⟩ => ⟨S_, .i32⟩
  | .hbm, ⟨48, _⟩ => ⟨S200000, .i32⟩
  | .hbm, ⟨49, _⟩ => ⟨S200000, .i32⟩
  | .hbm, ⟨50, _⟩ => ⟨S200000, .i32⟩
  | .hbm, ⟨51, _⟩ => ⟨S200000x1, .i32⟩
  | .hbm, ⟨52, _⟩ => ⟨S200000x512, .f32⟩
  | .hbm, ⟨53, _⟩ => ⟨S200000x1, .f32⟩
  | .hbm, ⟨54, _⟩ => ⟨S200000x512, .f32⟩
  | .hbm, ⟨55, _⟩ => ⟨S200000x512, .f32⟩
  | .hbm, ⟨56, _⟩ => ⟨S_, .f32⟩
  | .hbm, ⟨57, _⟩ => ⟨S25000x512, .f32⟩
  | .hbm, ⟨58, _⟩ => ⟨S200000x1, .i32⟩
  | .hbm, ⟨59, _⟩ => ⟨S25000x512, .f32⟩
  | .hbm, ⟨60, _⟩ => ⟨S25000, .f32⟩
  | .hbm, ⟨61, _⟩ => ⟨S25000x1, .f32⟩
  | .hbm, ⟨62, _⟩ => ⟨S25000x512, .f32⟩
  | .hbm, ⟨63, _⟩ => ⟨S25000x512, .f32⟩
  | .hbm, ⟨64, _⟩ => ⟨S25000x512, .f32⟩
  | .hbm, ⟨65, _⟩ => ⟨S1x512, .f32⟩
  | .hbm, ⟨66, _⟩ => ⟨S25000x512, .f32⟩
  | .hbm, ⟨67, _⟩ => ⟨S25000x512, .f32⟩
  | .hbm, ⟨68, _⟩ => ⟨S_, .f32⟩
  | .hbm, ⟨69, _⟩ => ⟨S25000x512, .f32⟩
  | .hbm, ⟨70, _⟩ => ⟨S25000x512, .f32⟩
  | .hbm, ⟨71, _⟩ => ⟨S25000x512, .f32⟩
  | .hbm, ⟨72, _⟩ => ⟨S_, .i32⟩
  | .hbm, ⟨73, _⟩ => ⟨S200000, .i32⟩
  | .hbm, ⟨74, _⟩ => ⟨S200000, .i1⟩
  | .hbm, ⟨75, _⟩ => ⟨S_, .i32⟩
  | .hbm, ⟨76, _⟩ => ⟨S200000, .i32⟩
  | .hbm, ⟨77, _⟩ => ⟨S200000, .i32⟩
  | .hbm, ⟨78, _⟩ => ⟨S200000, .i32⟩
  | .hbm, ⟨79, _⟩ => ⟨S200000x1, .i32⟩
  | .hbm, ⟨80, _⟩ => ⟨S200000x512, .f32⟩
  | .hbm, ⟨81, _⟩ => ⟨S200000x1, .f32⟩
  | .hbm, ⟨82, _⟩ => ⟨S200000x512, .f32⟩
  | .hbm, ⟨83, _⟩ => ⟨S200000x512, .f32⟩
  | .hbm, ⟨84, _⟩ => ⟨S_, .f32⟩
  | .hbm, ⟨85, _⟩ => ⟨S25000x512, .f32⟩
  | .hbm, ⟨86, _⟩ => ⟨S200000x1, .i32⟩
  | .hbm, ⟨87, _⟩ => ⟨S25000x512, .f32⟩
  | .hbm, ⟨88, _⟩ => ⟨S25000, .f32⟩
  | .hbm, ⟨89, _⟩ => ⟨S25000x1, .f32⟩
  | .hbm, ⟨90, _⟩ => ⟨S25000x512, .f32⟩
  | .hbm, ⟨91, _⟩ => ⟨S25000x512, .f32⟩
  | .hbm, ⟨92, _⟩ => ⟨S25000x512, .f32⟩
  | .hbm, ⟨93, _⟩ => ⟨S1x512, .f32⟩
  | .hbm, ⟨94, _⟩ => ⟨S25000x512, .f32⟩
  | .hbm, ⟨95, _⟩ => ⟨S25000x512, .f32⟩
  | .hbm, ⟨96, _⟩ => ⟨S_, .f32⟩
  | .hbm, ⟨97, _⟩ => ⟨S25000x512, .f32⟩
  | .hbm, ⟨98, _⟩ => ⟨S25000x512, .f32⟩
  | .hbm, ⟨99, _⟩ => ⟨S25000x1, .f32⟩
  | .hbm, ⟨100, _⟩ => ⟨S1x1, .f32⟩
  | .hbm, ⟨101, _⟩ => ⟨S25000x1, .f32⟩
  | .hbm, ⟨102, _⟩ => ⟨S25000x1, .f32⟩
  | .hbm, ⟨103, _⟩ => ⟨S25000, .f32⟩
  | .hbm, ⟨104, _⟩ => ⟨S25000x1, .f32⟩
  | .hbm, ⟨105, _⟩ => ⟨S1x1, .f32⟩
  | .hbm, ⟨106, _⟩ => ⟨S25000x1, .f32⟩
  | .hbm, ⟨107, _⟩ => ⟨S25000x1, .f32⟩
  | .hbm, ⟨108, _⟩ => ⟨S25000, .f32⟩
  | _, _ => ⟨S25000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_call1_cst : Ref sig .tc := ⟨.hbm, 96, rfl⟩
abbrev main_call1_v0 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S_S25000 : S_.BroadcastsInDim S25000 (![] : Fin 0 → Fin S25000.rank)
  bcast_S200000_S200000x1_0 : S200000.BroadcastsInDim S200000x1 (![0] : Fin 1 → Fin S200000x1.rank)
  bcast_S200000x1_S200000x512_0_1 : S200000x1.BroadcastsInDim S200000x512 (![0, 1] : Fin 2 → Fin S200000x512.rank)
  bcast_S_S25000x512 : S_.BroadcastsInDim S25000x512 (![] : Fin 0 → Fin S25000x512.rank)
  bcast_S25000_S25000x1_0 : S25000.BroadcastsInDim S25000x1 (![0] : Fin 1 → Fin S25000x1.rank)
  bcast_S25000x1_S25000x512_0_1 : S25000x1.BroadcastsInDim S25000x512 (![0, 1] : Fin 2 → Fin S25000x512.rank)
  bcast_S512_S1x512_1 : S512.BroadcastsInDim S1x512 (![1] : Fin 1 → Fin S1x512.rank)
  bcast_S1x512_S25000x512_0_1 : S1x512.BroadcastsInDim S25000x512 (![0, 1] : Fin 2 → Fin S25000x512.rank)
  bcast_S1_S1x1_1 : S1.BroadcastsInDim S1x1 (![1] : Fin 1 → Fin S1x1.rank)
  bcast_S1x1_S25000x1_0_1 : S1x1.BroadcastsInDim S25000x1 (![0, 1] : Fin 2 → Fin S25000x1.rank)
  shapeCasts_S25000x1_S25000 : S25000x1.ShapeCasts S25000
  scatter_S25000_S200000x1_S200000_n_0_0_1_wf : ScatterDims.WF S25000 S200000x1 S200000 [] [0] [0] 1
  gather_S25000_S200000x1_S200000_n_0_n_n_0_1_1_wf : GatherDims.WF S25000 S200000x1 S200000 [] [0] [] [0] [] 1 ![1]
  dot_S25000x512_S512x512_S25000x512_1_0_0_1_n_n_wf : DotDims.WF S25000x512 S512x512 S25000x512 [1] [0] [0] [1] [] []
  gather_S25000x512_S200000x1_S200000x512_1_0_n_n_0_1_1512_wf : GatherDims.WF S25000x512 S200000x1 S200000x512 [1] [0] [] [0] [] 1 ![1, 512]
  scatter_S25000x512_S200000x1_S200000x512_1_0_0_1_wf : ScatterDims.WF S25000x512 S200000x1 S200000x512 [1] [0] [0] 1
  dot_S25000x512_S512x1_S25000x1_1_0_0_1_n_n_wf : DotDims.WF S25000x512 S512x1 S25000x1 [1] [0] [0] [1] [] []

variable [Facts₀]

def scatter_S25000_S200000x1_S200000_n_0_0_1 : ScatterDims S25000 S200000x1 S200000 where
  updateWindowDims := []
  insertedWindowDims := [0]
  scatterDimsToOperandDims := [0]
  indexVectorDim := 1
  wf := scatter_S25000_S200000x1_S200000_n_0_0_1_wf
def gather_S25000_S200000x1_S200000_n_0_n_n_0_1_1 : GatherDims S25000 S200000x1 S200000 where
  offsetDims := []
  collapsedSliceDims := [0]
  operandBatchingDims := []
  startIndicesBatchingDims := []
  startIndexMap := [0]
  indexVectorDim := 1
  sliceSizes := ![1]
  wf := gather_S25000_S200000x1_S200000_n_0_n_n_0_1_1_wf
def dot_S25000x512_S512x512_S25000x512_1_0_0_1_n_n : DotDims S25000x512 S512x512 S25000x512 where
  lhsContracting := [1]
  rhsContracting := [0]
  lhsNonContracting := [0]
  rhsNonContracting := [1]
  lhsBatch := []
  rhsBatch := []
  wf := dot_S25000x512_S512x512_S25000x512_1_0_0_1_n_n_wf
def gather_S25000x512_S200000x1_S200000x512_1_0_n_n_0_1_1512 : GatherDims S25000x512 S200000x1 S200000x512 where
  offsetDims := [1]
  collapsedSliceDims := [0]
  operandBatchingDims := []
  startIndicesBatchingDims := []
  startIndexMap := [0]
  indexVectorDim := 1
  sliceSizes := ![1, 512]
  wf := gather_S25000x512_S200000x1_S200000x512_1_0_n_n_0_1_1512_wf
def scatter_S25000x512_S200000x1_S200000x512_1_0_0_1 : ScatterDims S25000x512 S200000x1 S200000x512 where
  updateWindowDims := [1]
  insertedWindowDims := [0]
  scatterDimsToOperandDims := [0]
  indexVectorDim := 1
  wf := scatter_S25000x512_S200000x1_S200000x512_1_0_0_1_wf
def dot_S25000x512_S512x1_S25000x1_1_0_0_1_n_n : DotDims S25000x512 S512x1 S25000x1 where
  lhsContracting := [1]
  rhsContracting := [0]
  lhsNonContracting := [0]
  rhsNonContracting := [1]
  lhsBatch := []
  rhsBatch := []
  wf := dot_S25000x512_S512x1_S25000x1_1_0_0_1_n_n_wf

class Facts : Prop extends Facts₀ where

variable [Facts]
-- ==== Proof.Boundary1.lean ====
import proofs.«135141_j11647951306787_1_alg».proof.Proof.Gen.KernelIdeal.Frame
import proofs.«135141_j11647951306787_1_alg».proof.Proof.Gen.ReferenceIdeal.Read
import Idealize.ShloMosaic.Lib.Pipeline.Value
import Idealize.ShloMosaic.Lib.StableHlo.Run
import Idealize.ShloMosaic.PureOps.Ideal.Laws

/-!
What the kernel program's first stretch of host operations leaves, read at the buffers the later segments use. The
stretch is, operation for operation, the reference's own opening: the two rows of the edge list (sources and targets),
the in-degree plus one as a scatter-add of ones, its inverse square root, the per-edge weight as the product of the
inverse roots gathered at the two ends, and the per-node self-loop weight as the inverse root squared. So each buffer
holds the reference's own stage of the edge list, and nothing here is opened.
-/

set_option maxRecDepth 16384

noncomputable section

namespace Cert.KernelIdeal.Boundary

open Cert.KernelIdeal Cert.KernelIdeal.Gen Cert.KernelIdeal.Facts₀ Cert.KernelIdeal.Facts
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The edge list as launched. -/
abbrev edges : Buf (Elt Ideal) ((c : Thread nD τ).loc main_arg1) := m ((c : Thread nD τ).loc main_arg1)

set_option maxHeartbeats 4000000 in
/-- The sources of the edges. -/
theorem W1_src : W1 m ρ c (Proc.devRef .tc main_v1) = Cert.ReferenceIdeal.Read.val_main_v1 (F := Ideal) (edges m c) := by
  show StableHlo.after hostOps0 (W0 m ρ c) (Proc.devRef .tc main_v1) = _
  after_results_simp
  rfl

set_option maxHeartbeats 4000000 in
/-- The targets of the edges. -/
theorem W1_dst : W1 m ρ c (Proc.devRef .tc main_v3) = Cert.ReferenceIdeal.Read.val_main_v3 (F := Ideal) (edges m c) := by
  show StableHlo.after hostOps0 (W0 m ρ c) (Proc.devRef .tc main_v3) = _
  after_results_simp
  rfl

set_option maxHeartbeats 4000000 in
/-- The per-edge weight: the inverse root degree at the source times that at the target. -/
theorem W1_norm : W1 m ρ c (Proc.devRef .tc main_v25) = Cert.ReferenceIdeal.Read.val_main_v25 (F := Ideal) (edges m c) := by
  show StableHlo.after hostOps0 (W0 m ρ c) (Proc.devRef .tc main_v25) = _
  after_results_simp
  rfl

set_option maxHeartbeats 4000000 in
/-- The per-node self-loop weight, the inverse root degree squared, laid out as one column. -/
theorem W1_self : W1 m ρ c (Proc.devRef .tc main_v27)
    = shapeCast S25000x1 (Cert.ReferenceIdeal.Read.val_main_v40 (F := Ideal) (edges m c)) Facts₀.shapeCasts_S25000_S25000x1 := by
  show StableHlo.after hostOps0 (W0 m ρ c) (Proc.devRef .tc main_v27) = _
  after_results_simp
  rfl

end Cert.KernelIdeal.Boundary

end
-- ==== Proof.Matmul0.lean ====
import proofs.«135141_j11647951306787_1_alg».proof.Proof.Gen.KernelIdeal.Frame
import proofs.«135141_j11647951306787_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## One element of a 1000 × 512 row tile times the 512 × 512 weights -/

/-- The body reads and writes each staging buffer whole: from offset (0, 0). -/
private theorem originOffsets_eq : (![0, 0] : Fin 2 → Nat) = fun _ => 0 := funext fun a => by fin_cases a <;> rfl

/-- The left operand is read, at output element `i` and contraction index `q`, in row `i 0` … -/
private theorem dotLhs_row (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
/-- … and column `q`; -/
private theorem dotLhs_contr (i : S1000x512.Idx) (q : dot_S1000x512_S512x512_S1000x512_1_0_0_1_n_n.contr.Idx) :
    (dot_S1000x512_S512x512_S1000x512_1_0_0_1_n_n.lhsIdx i q 1).val = (q ⟨0, by decide⟩).val :=
  dot_S1000x512_S512x512_S1000x512_1_0_0_1_n_n.lhsIdx_val_of_single rfl i q
/-- the right operand in row `q` … -/
private theorem dotRhs_contr (i : S1000x512.Idx) (q : dot_S1000x512_S512x512_S1000x512_1_0_0_1_n_n.contr.Idx) :
    (dot_S1000x512_S512x512_S1000x512_1_0_0_1_n_n.rhsIdx i q 0).val = (q ⟨0, by decide⟩).val :=
  dot_S1000x512_S512x512_S1000x512_1_0_0_1_n_n.rhsIdx_val_of_single rfl i q
/-- … and column `i 1`. -/
private theorem dotRhs_col (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- Element (row of `y`, `k`) of the row tile. -/
private abbrev tileLhsAt (y : S1000x512.Idx) (k : Fin 512) : S1000x512.Idx := fun a => match a with
  | ⟨0, _⟩ => ⟨(y 0).val, (y 0).isLt⟩
  | ⟨1, _⟩ => ⟨k.val, k.isLt⟩
/-- Element (`k`, column of `y`) of the weights. -/
private abbrev tileRhsAt (y : S1000x512.Idx) (k : Fin 512) : S512x512.Idx := fun a => match a with
  | ⟨0, _⟩ => ⟨k.val, k.isLt⟩
  | ⟨1, _⟩ => ⟨(y 1).val, (y 1).isLt⟩

/-- The body's one stored value at an element: both operands are taken as they are (the narrowing to bf16 is exact
    over the extended reals), the accumulator starts at zero, so element `y` is the sum over the 512 contraction
    indices `k` of tile[row of y, k] · weights[k, column of y]. -/
theorem k0_pay1_apply (v0 : Vec Ideal S1000x512 .f32) (v2 : Vec Ideal S512x512 .f32) (y : S1000x512.Idx) :
    k0_pay1 (F := Ideal) v0 v2 y = ∑ k : Fin 512, v0 (tileLhsAt y k) * v2 (tileRhsAt y k) := by
  refine (Ideal.matmul_constant_zero_apply dot_S1000x512_S512x512_S1000x512_1_0_0_1_n_n none _ _ y).trans ?_
  rw [← Equiv.sum_comp (ValueIdx.contrEquiv1 dot_S1000x512_S512x512_S1000x512_1_0_0_1_n_n 512 rfl rfl).symm]
  refine Finset.sum_congr rfl fun k _ => ?_
  have hk := ValueIdx.contrEquiv1_symm_val dot_S1000x512_S512x512_S1000x512_1_0_0_1_n_n 512 rfl rfl k
  have el : dot_S1000x512_S512x512_S1000x512_1_0_0_1_n_n.lhsIdx y ((ValueIdx.contrEquiv1 dot_S1000x512_S512x512_S1000x512_1_0_0_1_n_n 512 rfl rfl).symm k) = tileLhsAt y k := funext fun a => Fin.ext (by
    match a with
    | ⟨0, _⟩ => exact dotLhs_row _ _
    | ⟨1, _⟩ => exact (dotLhs_contr _ _).trans hk)
  have er : dot_S1000x512_S512x512_S1000x512_1_0_0_1_n_n.rhsIdx y ((ValueIdx.contrEquiv1 dot_S1000x512_S512x512_S1000x512_1_0_0_1_n_n 512 rfl rfl).symm k) = tileRhsAt y k := funext fun a => Fin.ext (by
    match a with
    | ⟨0, _⟩ => exact (dotRhs_contr _ _).trans hk
    | ⟨1, _⟩ => exact dotRhs_col _ _)
  rw [truncf_apply, truncf_apply, el, er]

/-! ## From the 25 row tiles to the array -/

/-- The index maps over the 25 grid points: at point `t` the left operand's and the output's tile is row tile `t`
    (column tile 0); the weights' tile is the whole array at every point. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is row tile `t` of the product of the two arrays the region found: local row `p` of
    the tile is row `t · 1000 + p` of the left array, and the weights are read whole. -/
theorem flushed0_eq (c : Dev nD) (t : Fin cfg0.N) :
    (dat0 (F := Ideal) V c).flushed 2 t = ((cfg0.win 2).blk t).view.read (Elt Ideal)
      (Cert.ReferenceIdeal.Read.val_main_v26 (F := Ideal) (V c main_arg0) (V c main_arg2)) := by
  show (cfg0.win 2).cut (grid0.coords t) ((dat0 V c).after 2 t) = _
  rw [after0_2]
  unfold out0_2
  rw [View.canon_unit_zero originOffsets_eq]
  simp only [View.ld_unit_zero (S := S1000x512) originOffsets_eq, View.ld_unit_zero (S := S512x512) originOffsets_eq]
  obtain ⟨e0, e1, e2, e3, e4, e5⟩ := blockIndex0 t
  funext y
  show k0_pay1 (F := Ideal) (iblk0 V c 0 t) (iblk0 V c 1 t) y
    = Cert.ReferenceIdeal.Read.val_main_v26 (F := Ideal) (V c main_arg0) (V c main_arg2) (((cfg0.win 2).blk t).view.emb y)
  refine (k0_pay1_apply _ _ y).trans ?_
  rw [Cert.ReferenceIdeal.Read.val_main_v26_apply]
  refine Finset.sum_congr rfl fun k _ => ?_
  have hl : ((cfg0.win 0).blk t).view.emb (tileLhsAt y k)
      = Cert.ReferenceIdeal.Read.lidx_main_v26 (((cfg0.win 2).blk t).view.emb y) k := by
    funext a; apply Fin.ext
    match a with
    | ⟨0, _⟩ => show win0_0.index t (0 : Fin 2) * 1000 + 1 * (y 0).val = win0_2.index t (0 : Fin 2) * 1000 + 1 * (y 0).val; omega
    | ⟨1, _⟩ => show win0_0.index t (1 : Fin 2) * 512 + 1 * k.val = k.val; omega
  have hr : ((cfg0.win 1).blk t).view.emb (tileRhsAt y k)
      = Cert.ReferenceIdeal.Read.ridx_main_v26 (((cfg0.win 2).blk t).view.emb y) k := by
    funext a; apply Fin.ext
    match a with
    | ⟨0, _⟩ => show win0_1.index t (0 : Fin 2) * 512 + 1 * k.val = k.val; omega
    | ⟨1, _⟩ => show win0_1.index t (1 : Fin 2) * 512 + 1 * (y 1).val = win0_2.index t (1 : Fin 2) * 512 + 1 * (y 1).val; omega
  have h0 : iblk0 V c 0 t (tileLhsAt y k)
      = V c main_arg0 (Cert.ReferenceIdeal.Read.lidx_main_v26 (((cfg0.win 2).blk t).view.emb y) k) := by
    show V c main_arg0 (((cfg0.win 0).blk t).view.emb (tileLhsAt y k)) = _
    rw [hl]
  have h1 : iblk0 V c 1 t (tileRhsAt y k)
      = V c main_arg2 (Cert.ReferenceIdeal.Read.ridx_main_v26 (((cfg0.win 2).blk t).view.emb y) k) := by
    show V c main_arg2 (((cfg0.win 1).blk t).view.emb (tileRhsAt y k)) = _
    rw [hr]
  rw [h0, h1]

/-- An index of the output array is in point `t`'s tile iff each coordinate is in the tile's range on its axis. -/
theorem mem_outTile0 (t : Fin cfg0.N) (i : S25000x512.Idx) :
    i ∈ ((cfg0.win 2).blk t).view.set ↔ ∀ a : Fin 2, win0_2.index t a * S1000x512.size a ≤ (i a).val ∧ (i a).val < win0_2.index t a * S1000x512.size a + S1000x512.size a := by
  show i ∈ ((View.whole main_v28).slice (win0_2.rect t)).set ↔ _
  rw [View.set_slice_whole, Rect.mem_set_unit]
  exact Iff.rfl

/-- The 25 row tiles cover the array: row `r` lies in the tile of point `r / 1000`, and every tile is 512 columns wide. -/
theorem outTiles0_cover (i : S25000x512.Idx) :
    ∃ t : Fin cfg0.N, (cfg0.win 2).flush t = true ∧ i ∈ ((cfg0.win 2).blk t).view.set := by
  have hi0 : (i 0).val < 25000 := (i 0).isLt
  have hi1 : (i 1).val < 512 := (i 1).isLt
  obtain ⟨t, ht⟩ : ∃ t : Fin cfg0.N, t.val = (i 0).val / 1000 :=
    ⟨⟨(i 0).val / 1000, lt_of_lt_of_eq (by omega) N_0.symm⟩, rfl⟩
  obtain ⟨e0, e1, e2, e3, e4, e5⟩ := blockIndex0 t
  refine ⟨t, flush0_2 t, ?_⟩
  rw [mem_outTile0]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 512 ≤ (i 1).val ∧ (i 1).val < win0_2.index t (1 : Fin 2) * 512 + 512; omega

/-- After the first projection's 25 row tiles have been written back, its output array is the product of the two
    arrays the region found: entry (n, f) is the sum over k of x[n, k] · w[k, f]. -/
theorem arr0 (c : Dev nD) :
    (dat0 (F := Ideal) V c).arrAt 2 cfg0.N = Cert.ReferenceIdeal.Read.val_main_v26 (F := Ideal) (V c main_arg0) (V c main_arg2) :=
  (dat0 (F := Ideal) V c).arrAt_eq_of_cover 2 _ (fun t _ => flushed0_eq V c t) outTiles0_cover

end Cert.KernelIdeal.RegionValue

end
-- ==== Proof.ReluLayer.lean ====
import Idealize.ShloMosaic.PureOps.Ideal
import Idealize.ShloMosaic.PureOps.Ideal.Laws
import Idealize.ShloMosaic.Lib.ValueIdx
import Idealize.ShloMosaic.Lib.Pipeline.Value

/-!
One graph-convolution layer's closing step, as a function of whole arrays over the extended reals: at node `n` and
feature `f`,

  max ( (agg[n, f] + hw[n, f] · d[n, 0]) + b[0, f] , 0 )

where `agg` is the sum of the neighbours' scaled messages, `hw` the node's own projected features, `d` the column of
squared inverse-root degrees (the self-loop's weight) and `b` the bias row. Both programs compute exactly this tree:
the same grouping of the two sums, the same product, the same maximum against zero.
-/

noncomputable section

namespace Cert.ReluLayer

open Idealize.ShloMosaic Idealize.ShloMosaic.ValueIdx

/-- Nodes × features. -/
abbrev SNH : Shape := ⟨2, ![25000, 512]⟩
/-- One column, a value per node. -/
abbrev SN1 : Shape := ⟨2, ![25000, 1]⟩
/-- One row, a value per feature. -/
abbrev S1H : Shape := ⟨2, ![1, 512]⟩

/-- The layer's closing step at every node and feature. -/
def reluLayer (agg hw : SNH.Idx → EReal) (d : SN1.Idx → EReal) (b : S1H.Idx → EReal) : SNH.Idx → EReal :=
  fun i => max ((agg i + hw i * d (ix2 (i 0) 0)) + b (ix2 0 (i 1))) 0

theorem reluLayer_apply (agg hw : SNH.Idx → EReal) (d : SN1.Idx → EReal) (b : S1H.Idx → EReal) (i : SNH.Idx) :
    reluLayer agg hw d b i = max ((agg i + hw i * d (ix2 (i 0) 0)) + b (ix2 0 (i 1))) 0 := rfl

end Cert.ReluLayer

end
-- ==== Proof.Combine1.lean ====
import proofs.«135141_j11647951306787_1_alg».proof.Proof.Gen.KernelIdeal.Frame
import proofs.«135141_j11647951306787_1_alg».proof.Proof.Gen.ReferenceIdeal.Read
import proofs.«135141_j11647951306787_1_alg».proof.Proof.ReluLayer
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The body's stored value at an index of a tile -/

/-- A column of one value per row, spread over the columns, reads its row's value. -/
private theorem spreadColumn_apply (v : Vec Ideal S1000x1 .f32) (p : Fin 1000) (q : Fin 512) :
    broadcastTo S1000x512 v broadcasts_S1000x1_S1000x512 (ix2 p q) = v (ix2 p 0) := by
  refine broadcastTo_apply v _ (ix2 p q) (ix2 p 0) (fun a => ?_)
  match a with
  | ⟨0, _⟩ => rfl
  | ⟨1, _⟩ => rfl

/-- A row of one value per column, spread over the rows, reads its column's value. -/
private theorem spreadRow_apply (v : Vec Ideal S1x512 .f32) (p : Fin 1000) (q : Fin 512) :
    broadcastTo S1000x512 v broadcasts_S1x512_S1000x512 (ix2 p q) = v (ix2 0 q) := by
  refine broadcastTo_apply v _ (ix2 p q) (ix2 0 q) (fun a => ?_)
  match a with
  | ⟨0, _⟩ => rfl
  | ⟨1, _⟩ => rfl

/-- The body's stored value at row `p`, column `q` of a tile: the sum of the neighbours' messages plus the node's
    own features times its row's degree weight, plus the column's bias, cut off below at zero. -/
theorem k1_pay1_apply (v0 : Vec Ideal S1000x1 .f32) (v4 : Vec Ideal S1x512 .f32) (v8 v10 : Vec Ideal S1000x512 .f32)
    (p : Fin 1000) (q : Fin 512) :
    k1_pay1 v0 v4 v8 v10 (ix2 p q) = max ((v8 (ix2 p q) + v10 (ix2 p q) * v0 (ix2 p 0)) + v4 (ix2 0 q)) 0 := by
  unfold k1_pay1
  simp only [shapeCast_self]
  rw [maximumf_apply, addf_apply, addf_apply, mulf_apply, broadcast_apply, spreadColumn_apply, spreadRow_apply]
  rw [show (Scalar.ofBits (F := Ideal) .f32 0x00000000#32) = Ideal.ofBits .f32 0x00000000#32 from rfl, Ideal.ofBits_zero_f32]

/-- The layer's closing step at node `n`, feature `f`. -/
private theorem reluLayer_ix2 (agg hw : Cert.ReluLayer.SNH.Idx → EReal) (d : Cert.ReluLayer.SN1.Idx → EReal)
    (b : Cert.ReluLayer.S1H.Idx → EReal) (n : Fin 25000) (f : Fin 512) :
    Cert.ReluLayer.reluLayer agg hw d b (ix2 n f)
      = max ((agg (ix2 n f) + hw (ix2 n f) * d (ix2 n 0)) + b (ix2 0 f)) 0 := rfl

/-! ## Where each tile sits in its array -/

/-- The two zero offsets of a whole-tile access, as the constant zero function. -/
private theorem tileOrigin_eq : (![0, 0] : Fin 2 → Nat) = fun _ => 0 := funext fun a => by fin_cases a <;> rfl

/-- The block index maps over the 25 row tiles: the three tall windows and the output sit at row tile `t`, column
    block `0`; the bias row is the one block `(0, 0)`. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p`, column `q` of the neighbour sums' tile at point `t` is row `1000 t + p`, column `q` of the array. -/
theorem aggTile1_apply (c : Dev nD) (t : Fin cfg1.N) (p : Fin 1000) (q : Fin 512) (h : t.val * 1000 + p.val < 25000) :
    iblk1 V c 0 t (ix2 p q) = V c main_v41 (ix2 ⟨t.val * 1000 + p.val, h⟩ q) := by
  obtain ⟨e0, e1, -⟩ := blockIndex1 t
  show V c main_v41 (((cfg1.win 0).blk t).view.emb (ix2 p q)) = V c main_v41 _
  refine congrArg _ (funext fun a => Fin.ext ?_)
  match a with
  | ⟨0, _⟩ => show win1_0.index t (0 : Fin 2) * 1000 + 1 * p.val = t.val * 1000 + p.val; omega
  | ⟨1, _⟩ => show win1_0.index t (1 : Fin 2) * 512 + 1 * q.val = q.val; omega

/-- The same for the tile of the nodes' own projected features. -/
theorem ownTile1_apply (c : Dev nD) (t : Fin cfg1.N) (p : Fin 1000) (q : Fin 512) (h : t.val * 1000 + p.val < 25000) :
    iblk1 V c 1 t (ix2 p q) = V c main_v28 (ix2 ⟨t.val * 1000 + p.val, h⟩ q) := by
  obtain ⟨-, -, e0, e1, -⟩ := blockIndex1 t
  show V c main_v28 (((cfg1.win 1).blk t).view.emb (ix2 p q)) = V c main_v28 _
  refine congrArg _ (funext fun a => Fin.ext ?_)
  match a with
  | ⟨0, _⟩ => show win1_1.index t (0 : Fin 2) * 1000 + 1 * p.val = t.val * 1000 + p.val; omega
  | ⟨1, _⟩ => show win1_1.index t (1 : Fin 2) * 512 + 1 * q.val = q.val; omega

/-- Row `p` of the degree column's tile at point `t` is row `1000 t + p` of the column. -/
theorem degTile1_apply (c : Dev nD) (t : Fin cfg1.N) (p : Fin 1000) (h : t.val * 1000 + p.val < 25000) :
    iblk1 V c 2 t (ix2 p 0) = V c main_v27 (ix2 ⟨t.val * 1000 + p.val, h⟩ 0) := by
  obtain ⟨-, -, -, -, e0, e1, -⟩ := blockIndex1 t
  show V c main_v27 (((cfg1.win 2).blk t).view.emb (ix2 p 0)) = V c main_v27 _
  refine congrArg _ (funext fun a => Fin.ext ?_)
  match a with
  | ⟨0, _⟩ => show win1_2.index t (0 : Fin 2) * 1000 + 1 * p.val = t.val * 1000 + p.val; omega
  | ⟨1, _⟩ => show win1_2.index t (1 : Fin 2) * 1 + 1 * 0 = 0; omega

/-- The bias row's one block is the whole row, at every point. -/
theorem biasTile1_apply (c : Dev nD) (t : Fin cfg1.N) (q : Fin 512) :
    iblk1 V c 3 t (ix2 0 q) = V c main_v42 (ix2 0 q) := by
  obtain ⟨-, -, -, -, -, -, e0, e1, -⟩ := blockIndex1 t
  show V c main_v42 (((cfg1.win 3).blk t).view.emb (ix2 0 q)) = V c main_v42 _
  refine congrArg _ (funext fun a => Fin.ext ?_)
  match a with
  | ⟨0, _⟩ => show win1_3.index t (0 : Fin 2) * 1 + 1 * 0 = 0; omega
  | ⟨1, _⟩ => show win1_3.index t (1 : Fin 2) * 512 + 1 * q.val = q.val; omega

/-- Row `p`, column `q` of the output's tile at point `t` lies at row `1000 t + p`, column `q` of the output array. -/
theorem outTile1_emb (t : Fin cfg1.N) (p : Fin 1000) (q : Fin 512) (h : t.val * 1000 + p.val < 25000) :
    ((cfg1.win 4).blk t).view.emb (ix2 p q) = (ix2 ⟨t.val * 1000 + p.val, h⟩ q : S25000x512.Idx) := by
  obtain ⟨-, -, -, -, -, -, -, -, e0, e1⟩ := blockIndex1 t
  refine funext fun a => Fin.ext ?_
  match a with
  | ⟨0, _⟩ => show win1_4.index t (0 : Fin 2) * 1000 + 1 * p.val = t.val * 1000 + p.val; omega
  | ⟨1, _⟩ => show win1_4.index t (1 : Fin 2) * 512 + 1 * q.val = q.val; omega

/-! ## From the tiles to the array -/

/-- What point `t` writes back is tile `t` of the layer's closing step of the four arrays the region found. -/
theorem flushed1_eq (c : Dev nD) (t : Fin cfg1.N) :
    (dat1 (F := Ideal) V c).flushed 4 t
      = ((cfg1.win 4).blk t).view.read (Elt Ideal)
          (Cert.ReluLayer.reluLayer (V c main_v41) (V c main_v28) (V c main_v27) (V c main_v42)) := by
  show (cfg1.win 4).cut (grid1.coords t) ((dat1 V c).after 4 t) = _
  rw [after1_4]
  unfold out1_4
  rw [View.canon_unit_zero tileOrigin_eq]
  simp only [View.ld_unit_zero (S := S1000x512) tileOrigin_eq, View.ld_unit_zero (S := S1000x1) tileOrigin_eq,
    View.ld_unit_zero (S := S1x512) tileOrigin_eq]
  funext j
  obtain ⟨p, q, rfl⟩ : ∃ (p : Fin 1000) (q : Fin 512), j = ix2 p q := ⟨j 0, j 1, eq_ix2 j⟩
  have ht : t.val < 25 := t.isLt
  have h : t.val * 1000 + p.val < 25000 := by have := p.isLt; omega
  show k1_pay1 (iblk1 V c 2 t) (iblk1 V c 3 t) (iblk1 V c 0 t) (iblk1 V c 1 t) (ix2 p q)
    = Cert.ReluLayer.reluLayer (V c main_v41) (V c main_v28) (V c main_v27) (V c main_v42)
        (((cfg1.win 4).blk t).view.emb (ix2 p q))
  rw [outTile1_emb t p q h, reluLayer_ix2, k1_pay1_apply, aggTile1_apply V c t p q h, ownTile1_apply V c t p q h,
    degTile1_apply V c t p h, biasTile1_apply V c t q]

/-- An index of the output array is in point `t`'s tile iff each coordinate is in the tile's range on its axis. -/
theorem mem_outTile1 (t : Fin cfg1.N) (i : S25000x512.Idx) :
    i ∈ ((cfg1.win 4).blk t).view.set
      ↔ ∀ a : Fin 2, win1_4.index t a * S1000x512.size a ≤ (i a).val
          ∧ (i a).val < win1_4.index t a * S1000x512.size a + S1000x512.size a := by
  show i ∈ ((View.whole main_v43).slice (win1_4.rect t)).set ↔ _
  rw [View.set_slice_whole, Rect.mem_set_unit]
  exact Iff.rfl

/-- The 25 tiles cover the output array: row `r` is in the tile of point `r / 1000`. -/
theorem outTiles1_cover (i : S25000x512.Idx) :
    ∃ t : Fin cfg1.N, (cfg1.win 4).flush t = true ∧ i ∈ ((cfg1.win 4).blk t).view.set := by
  have hi0 : (i 0).val < 25000 := (i 0).isLt
  have hi1 : (i 1).val < 512 := (i 1).isLt
  obtain ⟨t, ht⟩ : ∃ t : Fin cfg1.N, t.val = (i 0).val / 1000 :=
    ⟨⟨(i 0).val / 1000, by show (i 0).val / 1000 < 25; omega⟩, rfl⟩
  obtain ⟨-, -, -, -, -, -, -, -, e0, e1⟩ := blockIndex1 t
  refine ⟨t, flush1_4 t, ?_⟩
  rw [mem_outTile1]
  intro a
  match a with
  | ⟨0, _⟩ =>
    show win1_4.index t (0 : Fin 2) * 1000 ≤ (i 0).val ∧ (i 0).val < win1_4.index t (0 : Fin 2) * 1000 + 1000
    omega
  | ⟨1, _⟩ =>
    show win1_4.index t (1 : Fin 2) * 512 ≤ (i 1).val ∧ (i 1).val < win1_4.index t (1 : Fin 2) * 512 + 512
    omega

/-- After the first layer's 25 row tiles have been written back, its output array is the layer's closing step of the
    four arrays the region found. -/
theorem arr1 (c : Dev nD) :
    (dat1 (F := Ideal) V c).arrAt 4 cfg1.N
      = Cert.ReluLayer.reluLayer (V c main_v41) (V c main_v28) (V c main_v27) (V c main_v42) :=
  (dat1 V c).arrAt_eq_of_cover 4 _ (fun t _ => flushed1_eq V c t) outTiles1_cover

end Cert.KernelIdeal.RegionValue

end
-- ==== Proof.ReluBridge.lean ====
import proofs.«135141_j11647951306787_1_alg».proof.Proof.ReluLayer
import Idealize.ShloMosaic.Lib.Pipeline.Value
import Idealize.ShloMosaic.Lib.ValueIdx
import Idealize.ShloMosaic.PureOps.Ideal.Laws

/-!
The layer's closing step in the two spellings the programs use for its small operands. The kernel program hands its
regions the self-loop weights as a reshaped column [N, 1] and the bias as a reshaped row [1, H] and broadcasts them
inside the body; the reference broadcasts each in two steps to [N, H] and then works elementwise. At node `n` and
feature `f` both read the weight at `n` and the bias at `f`, so the two are one function.
-/

noncomputable section

namespace Cert.ReluLayer

open Idealize.ShloMosaic Idealize.ShloMosaic.ValueIdx

/-- A value per node. -/
abbrev SN : Shape := ⟨1, ![25000]⟩
/-- A value per feature. -/
abbrev SH : Shape := ⟨1, ![512]⟩
/-- A single value. -/
abbrev S0 : Shape := ⟨0, ![]⟩

/-- The closing step at node `n`, feature `f`. -/
theorem reluLayer_ix2 (agg hw : SNH.Idx → EReal) (d : SN1.Idx → EReal) (b : S1H.Idx → EReal) (n : Fin 25000) (f : Fin 512) :
    reluLayer agg hw d b (ix2 n f) = max ((agg (ix2 n f) + hw (ix2 n f) * d (ix2 n 0)) + b (ix2 0 f)) 0 := rfl

/-- A per-node vector reshaped to a column reads, in row `n`, the vector at `n`. -/
theorem column_apply (dd : SN.Idx → EReal) (h : SN.ShapeCasts SN1) (n : Fin 25000) :
    shapeCast SN1 dd h (ix2 n 0) = dd (ix1 n) := by
  refine shapeCast_apply dd h (ix2 n 0) (ix1 n) ?_
  rw [Shape.rowMajor_val_one, Shape.rowMajor_val_two]
  show n.val = n.val * 1 + 0
  omega

/-- A per-feature vector reshaped to a row reads, in column `f`, the vector at `f`. -/
theorem row_apply (bb : SH.Idx → EReal) (h : SH.ShapeCasts S1H) (f : Fin 512) :
    shapeCast S1H bb h (ix2 0 f) = bb (ix1 f) := by
  refine shapeCast_apply bb h (ix2 0 f) (ix1 f) ?_
  rw [Shape.rowMajor_val_one, Shape.rowMajor_val_two]
  show f.val = 0 * 512 + f.val
  omega

/-- A per-node vector broadcast along the features, in two steps, reads at (n, f) the vector at `n`. -/
theorem bcast_nodes_apply (dd : SN.Idx → EReal) (hb1 : SN.BroadcastsInDim SN1 ![0]) (hb2 : SN1.BroadcastsInDim SNH ![0, 1])
    (n : Fin 25000) (f : Fin 512) :
    broadcastInDim SNH ![0, 1] hb2 (broadcastInDim SN1 ![0] hb1 dd) (ix2 n f) = dd (ix1 n) :=
  (broadcastInDim_apply ![0, 1] hb2 (broadcastInDim SN1 ![0] hb1 dd) (ix2 n f) (ix2 n 0) (fun a => match a with
    | ⟨0, _⟩ => by show n.val = if (25000 : Nat) = 1 then 0 else n.val; rw [if_neg (by decide)]
    | ⟨1, _⟩ => by show 0 = if (1 : Nat) = 1 then 0 else f.val; rw [if_pos rfl])).trans
  (broadcastInDim_apply ![0] hb1 dd (ix2 n 0) (ix1 n) (fun a => match a with
    | ⟨0, _⟩ => by show n.val = if (25000 : Nat) = 1 then 0 else n.val; rw [if_neg (by decide)]))

/-- A per-feature vector broadcast along the nodes, in two steps, reads at (n, f) the vector at `f`. -/
theorem bcast_features_apply (bb : SH.Idx → EReal) (hb3 : SH.BroadcastsInDim S1H ![1]) (hb4 : S1H.BroadcastsInDim SNH ![0, 1])
    (n : Fin 25000) (f : Fin 512) :
    broadcastInDim SNH ![0, 1] hb4 (broadcastInDim S1H ![1] hb3 bb) (ix2 n f) = bb (ix1 f) :=
  (broadcastInDim_apply ![0, 1] hb4 (broadcastInDim S1H ![1] hb3 bb) (ix2 n f) (ix2 0 f) (fun a => match a with
    | ⟨0, _⟩ => by show 0 = if (1 : Nat) = 1 then 0 else n.val; rw [if_pos rfl]
    | ⟨1, _⟩ => by show f.val = if (512 : Nat) = 1 then 0 else f.val; rw [if_neg (by decide)])).trans
  (broadcastInDim_apply ![1] hb3 bb (ix2 0 f) (ix1 f) (fun a => match a with
    | ⟨0, _⟩ => by show f.val = if (512 : Nat) = 1 then 0 else f.val; rw [if_neg (by decide)]))

/-- The closing step over the reshaped column and row is the elementwise tree over the twice-broadcast vectors:
    at (n, f) both are max((agg + hw · d[n]) + b[f], 0). -/
theorem reluLayer_eq_host (agg hw : FVec Ideal SNH .f32) (dd : FVec Ideal SN .f32) (bb : FVec Ideal SH .f32)
    (h1 : SN.ShapeCasts SN1) (h2 : SH.ShapeCasts S1H)
    (hb1 : SN.BroadcastsInDim SN1 ![0]) (hb2 : SN1.BroadcastsInDim SNH ![0, 1])
    (hb3 : SH.BroadcastsInDim S1H ![1]) (hb4 : S1H.BroadcastsInDim SNH ![0, 1])
    (hb5 : S0.BroadcastsInDim SNH ![]) :
    reluLayer agg hw (shapeCast SN1 dd h1) (shapeCast S1H bb h2)
      = maximumf (addf (addf agg (mulf hw (broadcastInDim SNH ![0, 1] hb2 (broadcastInDim SN1 ![0] hb1 dd))))
          (broadcastInDim SNH ![0, 1] hb4 (broadcastInDim S1H ![1] hb3 bb)))
        (broadcastInDim SNH ![] hb5 (constant (F := Ideal) S0 .f32 0x00000000#32)) := by
  funext i
  obtain ⟨n, f, rfl⟩ : ∃ (n : Fin 25000) (f : Fin 512), i = ix2 n f := ⟨i 0, i 1, eq_ix2 i⟩
  rw [reluLayer_ix2, column_apply, row_apply, maximumf_apply, addf_apply, addf_apply, mulf_apply,
    bcast_nodes_apply, bcast_features_apply,
    broadcastInDim_apply ![] hb5 _ (ix2 n f) ix0 (fun a => a.elim0), constant_apply, Ideal.ofBits_zero_f32]

end Cert.ReluLayer

end
-- ==== Proof.Layer1.lean ====
import proofs.«135141_j11647951306787_1_alg».proof.Proof.Boundary1
import proofs.«135141_j11647951306787_1_alg».proof.Proof.Matmul0
import proofs.«135141_j11647951306787_1_alg».proof.Proof.Combine1
import proofs.«135141_j11647951306787_1_alg».proof.Proof.ReluBridge
import Idealize.ShloMosaic.Lib.Pipeline.Value
import Idealize.ShloMosaic.Lib.StableHlo.Run
import Idealize.ShloMosaic.PureOps.Ideal.Laws

/-!
The first graph-convolution layer of the kernel program, boundary by boundary, against the reference's stages of the
same arguments. The projection region leaves x·W₁ (the reference's product); the host stretch after it gathers the
product's rows at the edges' sources, scales each by its edge weight and scatter-adds them at the targets (the
reference's own operations on the same operands, never opened) and reshapes the bias to a row; the closing region
leaves max((agg + x·W₁ · d) + b₁, 0), which the reference spells with twice-broadcast operands.
-/

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The node features, the two layers' weights and biases, as launched. -/
abbrev feat : Buf (Elt Ideal) ((c : Thread nD τ).loc main_arg0) := m ((c : Thread nD τ).loc main_arg0)
abbrev wt1 : Buf (Elt Ideal) ((c : Thread nD τ).loc main_arg2) := m ((c : Thread nD τ).loc main_arg2)
abbrev bias1 : Buf (Elt Ideal) ((c : Thread nD τ).loc main_arg3) := m ((c : Thread nD τ).loc main_arg3)
abbrev wt2 : Buf (Elt Ideal) ((c : Thread nD τ).loc main_arg4) := m ((c : Thread nD τ).loc main_arg4)
abbrev bias2 : Buf (Elt Ideal) ((c : Thread nD τ).loc main_arg5) := m ((c : Thread nD τ).loc main_arg5)

/-! ## Before the first region: the arguments are as launched -/

set_option maxHeartbeats 4000000 in
theorem W1_feat : W1 m ρ c (Proc.devRef .tc main_arg0) = feat m c := by
  show StableHlo.after hostOps0 (W0 m ρ c) (Proc.devRef .tc main_arg0) = _
  after_results_simp <;> rfl
set_option maxHeartbeats 4000000 in
theorem W1_wt1 : W1 m ρ c (Proc.devRef .tc main_arg2) = wt1 m c := by
  show StableHlo.after hostOps0 (W0 m ρ c) (Proc.devRef .tc main_arg2) = _
  after_results_simp <;> rfl
set_option maxHeartbeats 4000000 in
theorem W1_bias1 : W1 m ρ c (Proc.devRef .tc main_arg3) = bias1 m c := by
  show StableHlo.after hostOps0 (W0 m ρ c) (Proc.devRef .tc main_arg3) = _
  after_results_simp <;> rfl
set_option maxHeartbeats 4000000 in
theorem W1_wt2 : W1 m ρ c (Proc.devRef .tc main_arg4) = wt2 m c := by
  show StableHlo.after hostOps0 (W0 m ρ c) (Proc.devRef .tc main_arg4) = _
  after_results_simp <;> rfl
set_option maxHeartbeats 4000000 in
theorem W1_bias2 : W1 m ρ c (Proc.devRef .tc main_arg5) = bias2 m c := by
  show StableHlo.after hostOps0 (W0 m ρ c) (Proc.devRef .tc main_arg5) = _
  after_results_simp <;> rfl

/-! ## After the first projection -/

/-- The region's output is the product of the features and the first weights. -/
theorem W2_hw : W2 m ρ c (Proc.devRef .tc main_v28)
    = Cert.ReferenceIdeal.Read.val_main_v26 (F := Ideal) (feat m c) (wt1 m c) := by
  refine (W2_arr m ρ c 2).trans ((Cert.KernelIdeal.RegionValue.arr0 (V1 m ρ) c).trans ?_)
  rw [show V1 m ρ c main_arg0 = feat m c from W1_feat m ρ c, show V1 m ρ c main_arg2 = wt1 m c from W1_wt1 m ρ c]

/-- What the region does not stage it leaves alone. -/
theorem W2_src : W2 m ρ c (Proc.devRef .tc main_v1) = Cert.ReferenceIdeal.Read.val_main_v1 (F := Ideal) (edges m c) :=
  (W2_of_ne m ρ c main_v1 (by decide)).trans (W1_src m ρ c)
theorem W2_dst : W2 m ρ c (Proc.devRef .tc main_v3) = Cert.ReferenceIdeal.Read.val_main_v3 (F := Ideal) (edges m c) :=
  (W2_of_ne m ρ c main_v3 (by decide)).trans (W1_dst m ρ c)
theorem W2_norm : W2 m ρ c (Proc.devRef .tc main_v25) = Cert.ReferenceIdeal.Read.val_main_v25 (F := Ideal) (edges m c) :=
  (W2_of_ne m ρ c main_v25 (by decide)).trans (W1_norm m ρ c)
theorem W2_self : W2 m ρ c (Proc.devRef .tc main_v27)
    = shapeCast S25000x1 (Cert.ReferenceIdeal.Read.val_main_v40 (F := Ideal) (edges m c)) Facts₀.shapeCasts_S25000_S25000x1 :=
  (W2_of_ne m ρ c main_v27 (by decide)).trans (W1_self m ρ c)
theorem W2_bias1 : W2 m ρ c (Proc.devRef .tc main_arg3) = bias1 m c :=
  (W2_of_ne m ρ c main_arg3 (by decide)).trans (W1_bias1 m ρ c)
theorem W2_wt2 : W2 m ρ c (Proc.devRef .tc main_arg4) = wt2 m c :=
  (W2_of_ne m ρ c main_arg4 (by decide)).trans (W1_wt2 m ρ c)
theorem W2_bias2 : W2 m ρ c (Proc.devRef .tc main_arg5) = bias2 m c :=
  (W2_of_ne m ρ c main_arg5 (by decide)).trans (W1_bias2 m ρ c)

/-! ## After the host stretch between the two regions of the layer -/

set_option maxHeartbeats 4000000 in
/-- The aggregate: the product's rows gathered at the sources, scaled by the edge weights, summed at the targets. -/
theorem W3_agg : W3 m ρ c (Proc.devRef .tc main_v41)
    = Cert.ReferenceIdeal.Read.val_main_v39 (F := Ideal) (feat m c) (edges m c) (wt1 m c) := by
  show StableHlo.after hostOps1 (W2 m ρ c) (Proc.devRef .tc main_v41) = _
  after_results_simp
  rw [W2_dst m ρ c, W2_hw m ρ c, W2_src m ρ c, W2_norm m ρ c]
  rfl

set_option maxHeartbeats 4000000 in
/-- The bias as a row. -/
theorem W3_bias1 : W3 m ρ c (Proc.devRef .tc main_v42) = shapeCast S1x512 (bias1 m c) Facts₀.shapeCasts_S512_S1x512 := by
  show StableHlo.after hostOps1 (W2 m ρ c) (Proc.devRef .tc main_v42) = _
  after_results_simp
  rw [W2_bias1 m ρ c]
  rfl

set_option maxHeartbeats 4000000 in
theorem W3_hw : W3 m ρ c (Proc.devRef .tc main_v28)
    = Cert.ReferenceIdeal.Read.val_main_v26 (F := Ideal) (feat m c) (wt1 m c) := by
  refine Eq.trans ?_ (W2_hw m ρ c)
  show StableHlo.after hostOps1 (W2 m ρ c) (Proc.devRef .tc main_v28) = _
  after_results_simp <;> rfl

set_option maxHeartbeats 4000000 in
theorem W3_self : W3 m ρ c (Proc.devRef .tc main_v27)
    = shapeCast S25000x1 (Cert.ReferenceIdeal.Read.val_main_v40 (F := Ideal) (edges m c)) Facts₀.shapeCasts_S25000_S25000x1 := by
  refine Eq.trans ?_ (W2_self m ρ c)
  show StableHlo.after hostOps1 (W2 m ρ c) (Proc.devRef .tc main_v27) = _
  after_results_simp <;> rfl

/-! ## After the layer's closing region -/

/-- The first layer's output is the reference's: max((agg + x·W₁ · d) + b₁, 0) at every node and feature. -/
theorem W4_h1 : W4 m ρ c (Proc.devRef .tc main_v43)
    = Cert.ReferenceIdeal.Read.val_main_v48 (F := Ideal) (feat m c) (edges m c) (wt1 m c) (bias1 m c) := by
  refine (W4_arr m ρ c 4).trans ((Cert.KernelIdeal.RegionValue.arr1 (V3 m ρ) c).trans ?_)
  rw [show V3 m ρ c main_v41 = _ from W3_agg m ρ c, show V3 m ρ c main_v28 = _ from W3_hw m ρ c,
    show V3 m ρ c main_v27 = _ from W3_self m ρ c, show V3 m ρ c main_v42 = _ from W3_bias1 m ρ c]
  refine (Cert.ReluLayer.reluLayer_eq_host _ _ _ _ _ _ Cert.ReferenceIdeal.Facts₀.bcast_S25000_S25000x1_0
    Cert.ReferenceIdeal.Facts₀.bcast_S25000x1_S25000x512_0_1 Cert.ReferenceIdeal.Facts₀.bcast_S512_S1x512_1
    Cert.ReferenceIdeal.Facts₀.bcast_S1x512_S25000x512_0_1 Cert.ReferenceIdeal.Facts₀.bcast_S_S25000x512).trans ?_
  rfl

end Cert.KernelIdeal.Boundary

end
-- ==== Proof.Matmul2.lean ====
import proofs.«135141_j11647951306787_1_alg».proof.Proof.Gen.KernelIdeal.Frame
import proofs.«135141_j11647951306787_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## One element of a 1000 × 512 row tile times the 512 × 512 weights -/

/-- The body reads and writes each staging buffer whole: from offset (0, 0). -/
private theorem originOffsets_eq : (![0, 0] : Fin 2 → Nat) = fun _ => 0 := funext fun a => by fin_cases a <;> rfl

/-- The left operand is read, at output element `i` and contraction index `q`, in row `i 0` … -/
private theorem dotLhs_row (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
/-- … and column `q`; -/
private theorem dotLhs_contr (i : S1000x512.Idx) (q : dot_S1000x512_S512x512_S1000x512_1_0_0_1_n_n.contr.Idx) :
    (dot_S1000x512_S512x512_S1000x512_1_0_0_1_n_n.lhsIdx i q 1).val = (q ⟨0, by decide⟩).val :=
  dot_S1000x512_S512x512_S1000x512_1_0_0_1_n_n.lhsIdx_val_of_single rfl i q
/-- the right operand in row `q` … -/
private theorem dotRhs_contr (i : S1000x512.Idx) (q : dot_S1000x512_S512x512_S1000x512_1_0_0_1_n_n.contr.Idx) :
    (dot_S1000x512_S512x512_S1000x512_1_0_0_1_n_n.rhsIdx i q 0).val = (q ⟨0, by decide⟩).val :=
  dot_S1000x512_S512x512_S1000x512_1_0_0_1_n_n.rhsIdx_val_of_single rfl i q
/-- … and column `i 1`. -/
private theorem dotRhs_col (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- Element (row of `y`, `k`) of the row tile. -/
private abbrev tileLhsAt (y : S1000x512.Idx) (k : Fin 512) : S1000x512.Idx := fun a => match a with
  | ⟨0, _⟩ => ⟨(y 0).val, (y 0).isLt⟩
  | ⟨1, _⟩ => ⟨k.val, k.isLt⟩
/-- Element (`k`, column of `y`) of the weights. -/
private abbrev tileRhsAt (y : S1000x512.Idx) (k : Fin 512) : S512x512.Idx := fun a => match a with
  | ⟨0, _⟩ => ⟨k.val, k.isLt⟩
  | ⟨1, _⟩ => ⟨(y 1).val, (y 1).isLt⟩

/-- The body's one stored value at an element: both operands are taken as they are (the reshaping of the tile to its
    own shape is the identity and the narrowing to bf16 is exact over the extended reals), the accumulator starts at
    zero, so element `y` is the sum over the 512 contraction indices `k` of tile[row of y, k] · weights[k, column of y]. -/
theorem k2_pay1_apply (v0 : Vec Ideal S1000x512 .f32) (v2 : Vec Ideal S512x512 .f32) (y : S1000x512.Idx) :
    k2_pay1 (F := Ideal) v0 v2 y = ∑ k : Fin 512, v0 (tileLhsAt y k) * v2 (tileRhsAt y k) := by
  refine (Ideal.matmul_constant_zero_apply dot_S1000x512_S512x512_S1000x512_1_0_0_1_n_n none _ _ y).trans ?_
  rw [← Equiv.sum_comp (ValueIdx.contrEquiv1 dot_S1000x512_S512x512_S1000x512_1_0_0_1_n_n 512 rfl rfl).symm]
  refine Finset.sum_congr rfl fun k _ => ?_
  have hk := ValueIdx.contrEquiv1_symm_val dot_S1000x512_S512x512_S1000x512_1_0_0_1_n_n 512 rfl rfl k
  have el : dot_S1000x512_S512x512_S1000x512_1_0_0_1_n_n.lhsIdx y ((ValueIdx.contrEquiv1 dot_S1000x512_S512x512_S1000x512_1_0_0_1_n_n 512 rfl rfl).symm k) = tileLhsAt y k := funext fun a => Fin.ext (by
    match a with
    | ⟨0, _⟩ => exact dotLhs_row _ _
    | ⟨1, _⟩ => exact (dotLhs_contr _ _).trans hk)
  have er : dot_S1000x512_S512x512_S1000x512_1_0_0_1_n_n.rhsIdx y ((ValueIdx.contrEquiv1 dot_S1000x512_S512x512_S1000x512_1_0_0_1_n_n 512 rfl rfl).symm k) = tileRhsAt y k := funext fun a => Fin.ext (by
    match a with
    | ⟨0, _⟩ => exact (dotRhs_contr _ _).trans hk
    | ⟨1, _⟩ => exact dotRhs_col _ _)
  rw [truncf_apply, truncf_apply, shapeCast_self, el, er]

/-! ## From the 25 row tiles to the array -/

/-- The index maps over the 25 grid points: at point `t` the left operand's and the output's tile is row tile `t`
    (column tile 0); the weights' tile is the whole array at every point. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is row tile `t` of the product of the two arrays the region found: local row `p` of
    the tile is row `t · 1000 + p` of the left array, and the weights are read whole. -/
theorem flushed2_eq (c : Dev nD) (t : Fin cfg2.N) :
    (dat2 (F := Ideal) V c).flushed 2 t = ((cfg2.win 2).blk t).view.read (Elt Ideal)
      (Cert.ReferenceIdeal.Read.val_main_v26 (F := Ideal) (V c main_v43) (V c main_arg4)) := by
  show (cfg2.win 2).cut (grid2.coords t) ((dat2 V c).after 2 t) = _
  rw [after2_2]
  unfold out2_2
  rw [View.canon_unit_zero originOffsets_eq]
  simp only [View.ld_unit_zero (S := S1000x512) originOffsets_eq, View.ld_unit_zero (S := S512x512) originOffsets_eq]
  obtain ⟨e0, e1, e2, e3, e4, e5⟩ := blockIndex2 t
  funext y
  show k2_pay1 (F := Ideal) (iblk2 V c 0 t) (iblk2 V c 1 t) y
    = Cert.ReferenceIdeal.Read.val_main_v26 (F := Ideal) (V c main_v43) (V c main_arg4) (((cfg2.win 2).blk t).view.emb y)
  refine (k2_pay1_apply _ _ y).trans ?_
  rw [Cert.ReferenceIdeal.Read.val_main_v26_apply]
  refine Finset.sum_congr rfl fun k _ => ?_
  have hl : ((cfg2.win 0).blk t).view.emb (tileLhsAt y k)
      = Cert.ReferenceIdeal.Read.lidx_main_v26 (((cfg2.win 2).blk t).view.emb y) k := by
    funext a; apply Fin.ext
    match a with
    | ⟨0, _⟩ => show win2_0.index t (0 : Fin 2) * 1000 + 1 * (y 0).val = win2_2.index t (0 : Fin 2) * 1000 + 1 * (y 0).val; omega
    | ⟨1, _⟩ => show win2_0.index t (1 : Fin 2) * 512 + 1 * k.val = k.val; omega
  have hr : ((cfg2.win 1).blk t).view.emb (tileRhsAt y k)
      = Cert.ReferenceIdeal.Read.ridx_main_v26 (((cfg2.win 2).blk t).view.emb y) k := by
    funext a; apply Fin.ext
    match a with
    | ⟨0, _⟩ => show win2_1.index t (0 : Fin 2) * 512 + 1 * k.val = k.val; omega
    | ⟨1, _⟩ => show win2_1.index t (1 : Fin 2) * 512 + 1 * (y 1).val = win2_2.index t (1 : Fin 2) * 512 + 1 * (y 1).val; omega
  have h0 : iblk2 V c 0 t (tileLhsAt y k)
      = V c main_v43 (Cert.ReferenceIdeal.Read.lidx_main_v26 (((cfg2.win 2).blk t).view.emb y) k) := by
    show V c main_v43 (((cfg2.win 0).blk t).view.emb (tileLhsAt y k)) = _
    rw [hl]
  have h1 : iblk2 V c 1 t (tileRhsAt y k)
      = V c main_arg4 (Cert.ReferenceIdeal.Read.ridx_main_v26 (((cfg2.win 2).blk t).view.emb y) k) := by
    show V c main_arg4 (((cfg2.win 1).blk t).view.emb (tileRhsAt y k)) = _
    rw [hr]
  rw [h0, h1]

/-- An index of the output array is in point `t`'s tile iff each coordinate is in the tile's range on its axis. -/
theorem mem_outTile2 (t : Fin cfg2.N) (i : S25000x512.Idx) :
    i ∈ ((cfg2.win 2).blk t).view.set ↔ ∀ a : Fin 2, win2_2.index t a * S1000x512.size a ≤ (i a).val ∧ (i a).val < win2_2.index t a * S1000x512.size a + S1000x512.size a := by
  show i ∈ ((View.whole main_v44).slice (win2_2.rect t)).set ↔ _
  rw [View.set_slice_whole, Rect.mem_set_unit]
  exact Iff.rfl

/-- The 25 row tiles cover the array: row `r` lies in the tile of point `r / 1000`, and every tile is 512 columns wide. -/
theorem outTiles2_cover (i : S25000x512.Idx) :
    ∃ t : Fin cfg2.N, (cfg2.win 2).flush t = true ∧ i ∈ ((cfg2.win 2).blk t).view.set := by
  have hi0 : (i 0).val < 25000 := (i 0).isLt
  have hi1 : (i 1).val < 512 := (i 1).isLt
  obtain ⟨t, ht⟩ : ∃ t : Fin cfg2.N, t.val = (i 0).val / 1000 :=
    ⟨⟨(i 0).val / 1000, lt_of_lt_of_eq (by omega) N_2.symm⟩, rfl⟩
  obtain ⟨e0, e1, e2, e3, e4, e5⟩ := blockIndex2 t
  refine ⟨t, flush2_2 t, ?_⟩
  rw [mem_outTile2]
  intro a
  match a with
  | ⟨0, _⟩ => show win2_2.index t (0 : Fin 2) * 1000 ≤ (i 0).val ∧ (i 0).val < win2_2.index t (0 : Fin 2) * 1000 + 1000; omega
  | ⟨1, _⟩ => show win2_2.index t (1 : Fin 2) * 512 ≤ (i 1).val ∧ (i 1).val < win2_2.index t (1 : Fin 2) * 512 + 512; omega

/-- After the second projection's 25 row tiles have been written back, its output array is the product of the two
    arrays the region found: entry (n, f) is the sum over k of h[n, k] · w[k, f]. -/
theorem arr2 (c : Dev nD) :
    (dat2 (F := Ideal) V c).arrAt 2 cfg2.N = Cert.ReferenceIdeal.Read.val_main_v26 (F := Ideal) (V c main_v43) (V c main_arg4) :=
  (dat2 (F := Ideal) V c).arrAt_eq_of_cover 2 _ (fun t _ => flushed2_eq V c t) outTiles2_cover

end Cert.KernelIdeal.RegionValue

end
-- ==== Proof.Combine3.lean ====
import proofs.«135141_j11647951306787_1_alg».proof.Proof.Gen.KernelIdeal.Frame
import proofs.«135141_j11647951306787_1_alg».proof.Proof.Gen.ReferenceIdeal.Read
import proofs.«135141_j11647951306787_1_alg».proof.Proof.ReluLayer
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The body's stored value at an index of a tile -/

/-- A column of one value per row, spread over the columns, reads its row's value. -/
private theorem spreadColumn_apply (v : Vec Ideal S1000x1 .f32) (p : Fin 1000) (q : Fin 512) :
    broadcastTo S1000x512 v broadcasts_S1000x1_S1000x512 (ix2 p q) = v (ix2 p 0) := by
  refine broadcastTo_apply v _ (ix2 p q) (ix2 p 0) (fun a => ?_)
  match a with
  | ⟨0, _⟩ => rfl
  | ⟨1, _⟩ => rfl

/-- A row of one value per column, spread over the rows, reads its column's value. -/
private theorem spreadRow_apply (v : Vec Ideal S1x512 .f32) (p : Fin 1000) (q : Fin 512) :
    broadcastTo S1000x512 v broadcasts_S1x512_S1000x512 (ix2 p q) = v (ix2 0 q) := by
  refine broadcastTo_apply v _ (ix2 p q) (ix2 0 q) (fun a => ?_)
  match a with
  | ⟨0, _⟩ => rfl
  | ⟨1, _⟩ => rfl

/-- The body's stored value at row `p`, column `q` of a tile: the sum of the neighbours' messages plus the node's
    own features times its row's degree weight, plus the column's bias, cut off below at zero. -/
theorem k3_pay1_apply (v0 : Vec Ideal S1000x1 .f32) (v4 : Vec Ideal S1x512 .f32) (v8 v10 : Vec Ideal S1000x512 .f32)
    (p : Fin 1000) (q : Fin 512) :
    k3_pay1 v0 v4 v8 v10 (ix2 p q) = max ((v8 (ix2 p q) + v10 (ix2 p q) * v0 (ix2 p 0)) + v4 (ix2 0 q)) 0 := by
  unfold k3_pay1
  simp only [shapeCast_self]
  rw [maximumf_apply, addf_apply, addf_apply, mulf_apply, broadcast_apply, spreadColumn_apply, spreadRow_apply]
  rw [show (Scalar.ofBits (F := Ideal) .f32 0x00000000#32) = Ideal.ofBits .f32 0x00000000#32 from rfl, Ideal.ofBits_zero_f32]

/-- The layer's closing step at node `n`, feature `f`. -/
private theorem reluLayer_ix2 (agg hw : Cert.ReluLayer.SNH.Idx → EReal) (d : Cert.ReluLayer.SN1.Idx → EReal)
    (b : Cert.ReluLayer.S1H.Idx → EReal) (n : Fin 25000) (f : Fin 512) :
    Cert.ReluLayer.reluLayer agg hw d b (ix2 n f)
      = max ((agg (ix2 n f) + hw (ix2 n f) * d (ix2 n 0)) + b (ix2 0 f)) 0 := rfl

/-! ## Where each tile sits in its array -/

/-- The two zero offsets of a whole-tile access, as the constant zero function. -/
private theorem tileOrigin_eq : (![0, 0] : Fin 2 → Nat) = fun _ => 0 := funext fun a => by fin_cases a <;> rfl

/-- The block index maps over the 25 row tiles: the three tall windows and the output sit at row tile `t`, column
    block `0`; the bias row is the one block `(0, 0)`. -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row `p`, column `q` of the neighbour sums' tile at point `t` is row `1000 t + p`, column `q` of the array. -/
theorem aggTile3_apply (c : Dev nD) (t : Fin cfg3.N) (p : Fin 1000) (q : Fin 512) (h : t.val * 1000 + p.val < 25000) :
    iblk3 V c 0 t (ix2 p q) = V c main_v57 (ix2 ⟨t.val * 1000 + p.val, h⟩ q) := by
  obtain ⟨e0, e1, -⟩ := blockIndex3 t
  show V c main_v57 (((cfg3.win 0).blk t).view.emb (ix2 p q)) = V c main_v57 _
  refine congrArg _ (funext fun a => Fin.ext ?_)
  match a with
  | ⟨0, _⟩ => show win3_0.index t (0 : Fin 2) * 1000 + 1 * p.val = t.val * 1000 + p.val; omega
  | ⟨1, _⟩ => show win3_0.index t (1 : Fin 2) * 512 + 1 * q.val = q.val; omega

/-- The same for the tile of the nodes' own projected features. -/
theorem ownTile3_apply (c : Dev nD) (t : Fin cfg3.N) (p : Fin 1000) (q : Fin 512) (h : t.val * 1000 + p.val < 25000) :
    iblk3 V c 1 t (ix2 p q) = V c main_v44 (ix2 ⟨t.val * 1000 + p.val, h⟩ q) := by
  obtain ⟨-, -, e0, e1, -⟩ := blockIndex3 t
  show V c main_v44 (((cfg3.win 1).blk t).view.emb (ix2 p q)) = V c main_v44 _
  refine congrArg _ (funext fun a => Fin.ext ?_)
  match a with
  | ⟨0, _⟩ => show win3_1.index t (0 : Fin 2) * 1000 + 1 * p.val = t.val * 1000 + p.val; omega
  | ⟨1, _⟩ => show win3_1.index t (1 : Fin 2) * 512 + 1 * q.val = q.val; omega

/-- Row `p` of the degree column's tile at point `t` is row `1000 t + p` of the column. -/
theorem degTile3_apply (c : Dev nD) (t : Fin cfg3.N) (p : Fin 1000) (h : t.val * 1000 + p.val < 25000) :
    iblk3 V c 2 t (ix2 p 0) = V c main_v27 (ix2 ⟨t.val * 1000 + p.val, h⟩ 0) := by
  obtain ⟨-, -, -, -, e0, e1, -⟩ := blockIndex3 t
  show V c main_v27 (((cfg3.win 2).blk t).view.emb (ix2 p 0)) = V c main_v27 _
  refine congrArg _ (funext fun a => Fin.ext ?_)
  match a with
  | ⟨0, _⟩ => show win3_2.index t (0 : Fin 2) * 1000 + 1 * p.val = t.val * 1000 + p.val; omega
  | ⟨1, _⟩ => show win3_2.index t (1 : Fin 2) * 1 + 1 * 0 = 0; omega

/-- The bias row's one block is the whole row, at every point. -/
theorem biasTile3_apply (c : Dev nD) (t : Fin cfg3.N) (q : Fin 512) :
    iblk3 V c 3 t (ix2 0 q) = V c main_v58 (ix2 0 q) := by
  obtain ⟨-, -, -, -, -, -, e0, e1, -⟩ := blockIndex3 t
  show V c main_v58 (((cfg3.win 3).blk t).view.emb (ix2 0 q)) = V c main_v58 _
  refine congrArg _ (funext fun a => Fin.ext ?_)
  match a with
  | ⟨0, _⟩ => show win3_3.index t (0 : Fin 2) * 1 + 1 * 0 = 0; omega
  | ⟨1, _⟩ => show win3_3.index t (1 : Fin 2) * 512 + 1 * q.val = q.val; omega

/-- Row `p`, column `q` of the output's tile at point `t` lies at row `1000 t + p`, column `q` of the output array. -/
theorem outTile3_emb (t : Fin cfg3.N) (p : Fin 1000) (q : Fin 512) (h : t.val * 1000 + p.val < 25000) :
    ((cfg3.win 4).blk t).view.emb (ix2 p q) = (ix2 ⟨t.val * 1000 + p.val, h⟩ q : S25000x512.Idx) := by
  obtain ⟨-, -, -, -, -, -, -, -, e0, e1⟩ := blockIndex3 t
  refine funext fun a => Fin.ext ?_
  match a with
  | ⟨0, _⟩ => show win3_4.index t (0 : Fin 2) * 1000 + 1 * p.val = t.val * 1000 + p.val; omega
  | ⟨1, _⟩ => show win3_4.index t (1 : Fin 2) * 512 + 1 * q.val = q.val; omega

/-! ## From the tiles to the array -/

/-- What point `t` writes back is tile `t` of the layer's closing step of the four arrays the region found. -/
theorem flushed3_eq (c : Dev nD) (t : Fin cfg3.N) :
    (dat3 (F := Ideal) V c).flushed 4 t
      = ((cfg3.win 4).blk t).view.read (Elt Ideal)
          (Cert.ReluLayer.reluLayer (V c main_v57) (V c main_v44) (V c main_v27) (V c main_v58)) := by
  show (cfg3.win 4).cut (grid3.coords t) ((dat3 V c).after 4 t) = _
  rw [after3_4]
  unfold out3_4
  rw [View.canon_unit_zero tileOrigin_eq]
  simp only [View.ld_unit_zero (S := S1000x512) tileOrigin_eq, View.ld_unit_zero (S := S1000x1) tileOrigin_eq,
    View.ld_unit_zero (S := S1x512) tileOrigin_eq]
  funext j
  obtain ⟨p, q, rfl⟩ : ∃ (p : Fin 1000) (q : Fin 512), j = ix2 p q := ⟨j 0, j 1, eq_ix2 j⟩
  have ht : t.val < 25 := t.isLt
  have h : t.val * 1000 + p.val < 25000 := by have := p.isLt; omega
  show k3_pay1 (iblk3 V c 2 t) (iblk3 V c 3 t) (iblk3 V c 0 t) (iblk3 V c 1 t) (ix2 p q)
    = Cert.ReluLayer.reluLayer (V c main_v57) (V c main_v44) (V c main_v27) (V c main_v58)
        (((cfg3.win 4).blk t).view.emb (ix2 p q))
  rw [outTile3_emb t p q h, reluLayer_ix2, k3_pay1_apply, aggTile3_apply V c t p q h, ownTile3_apply V c t p q h,
    degTile3_apply V c t p h, biasTile3_apply V c t q]

/-- An index of the output array is in point `t`'s tile iff each coordinate is in the tile's range on its axis. -/
theorem mem_outTile3 (t : Fin cfg3.N) (i : S25000x512.Idx) :
    i ∈ ((cfg3.win 4).blk t).view.set
      ↔ ∀ a : Fin 2, win3_4.index t a * S1000x512.size a ≤ (i a).val
          ∧ (i a).val < win3_4.index t a * S1000x512.size a + S1000x512.size a := by
  show i ∈ ((View.whole main_v59).slice (win3_4.rect t)).set ↔ _
  rw [View.set_slice_whole, Rect.mem_set_unit]
  exact Iff.rfl

/-- The 25 tiles cover the output array: row `r` is in the tile of point `r / 1000`. -/
theorem outTiles3_cover (i : S25000x512.Idx) :
    ∃ t : Fin cfg3.N, (cfg3.win 4).flush t = true ∧ i ∈ ((cfg3.win 4).blk t).view.set := by
  have hi0 : (i 0).val < 25000 := (i 0).isLt
  have hi1 : (i 1).val < 512 := (i 1).isLt
  obtain ⟨t, ht⟩ : ∃ t : Fin cfg3.N, t.val = (i 0).val / 1000 :=
    ⟨⟨(i 0).val / 1000, by show (i 0).val / 1000 < 25; omega⟩, rfl⟩
  obtain ⟨-, -, -, -, -, -, -, -, e0, e1⟩ := blockIndex3 t
  refine ⟨t, flush3_4 t, ?_⟩
  rw [mem_outTile3]
  intro a
  match a with
  | ⟨0, _⟩ =>
    show win3_4.index t (0 : Fin 2) * 1000 ≤ (i 0).val ∧ (i 0).val < win3_4.index t (0 : Fin 2) * 1000 + 1000
    omega
  | ⟨1, _⟩ =>
    show win3_4.index t (1 : Fin 2) * 512 ≤ (i 1).val ∧ (i 1).val < win3_4.index t (1 : Fin 2) * 512 + 512
    omega

/-- After the second layer's 25 row tiles have been written back, its output array is the layer's closing step of the
    four arrays the region found. -/
theorem arr3 (c : Dev nD) :
    (dat3 (F := Ideal) V c).arrAt 4 cfg3.N
      = Cert.ReluLayer.reluLayer (V c main_v57) (V c main_v44) (V c main_v27) (V c main_v58) :=
  (dat3 V c).arrAt_eq_of_cover 4 _ (fun t _ => flushed3_eq V c t) outTiles3_cover

end Cert.KernelIdeal.RegionValue

end
-- ==== Proof.Layer2.lean ====
import proofs.«135141_j11647951306787_1_alg».proof.Proof.Layer1
import proofs.«135141_j11647951306787_1_alg».proof.Proof.Matmul2
import proofs.«135141_j11647951306787_1_alg».proof.Proof.Combine3
import Idealize.ShloMosaic.Lib.Pipeline.Value
import Idealize.ShloMosaic.Lib.StableHlo.Run
import Idealize.ShloMosaic.PureOps.Ideal.Laws

/-!
The second graph-convolution layer of the kernel program, boundary by boundary. It repeats the first over the first
layer's output h₁: the projection region leaves h₁·W₂, the host stretch aggregates its rows over the edges with the
same weights and reshapes the second bias, and the closing region leaves max((agg + h₁·W₂ · d) + b₂, 0). The edge
rows, the edge weights and the self-loop column are the ones computed before the first region; what a region does
not stage it leaves alone, and what it stages as an input it hands back unchanged.
-/

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Carried across the first layer's host stretch and closing region -/

set_option maxHeartbeats 4000000 in
theorem W3_src : W3 m ρ c (Proc.devRef .tc main_v1) = Cert.ReferenceIdeal.Read.val_main_v1 (F := Ideal) (edges m c) := by
  refine Eq.trans ?_ (W2_src m ρ c)
  show StableHlo.after hostOps1 (W2 m ρ c) (Proc.devRef .tc main_v1) = _
  after_results_simp <;> rfl
set_option maxHeartbeats 4000000 in
theorem W3_dst : W3 m ρ c (Proc.devRef .tc main_v3) = Cert.ReferenceIdeal.Read.val_main_v3 (F := Ideal) (edges m c) := by
  refine Eq.trans ?_ (W2_dst m ρ c)
  show StableHlo.after hostOps1 (W2 m ρ c) (Proc.devRef .tc main_v3) = _
  after_results_simp <;> rfl
set_option maxHeartbeats 4000000 in
theorem W3_norm : W3 m ρ c (Proc.devRef .tc main_v25) = Cert.ReferenceIdeal.Read.val_main_v25 (F := Ideal) (edges m c) := by
  refine Eq.trans ?_ (W2_norm m ρ c)
  show StableHlo.after hostOps1 (W2 m ρ c) (Proc.devRef .tc main_v25) = _
  after_results_simp <;> rfl
set_option maxHeartbeats 4000000 in
theorem W3_wt2 : W3 m ρ c (Proc.devRef .tc main_arg4) = wt2 m c := by
  refine Eq.trans ?_ (W2_wt2 m ρ c)
  show StableHlo.after hostOps1 (W2 m ρ c) (Proc.devRef .tc main_arg4) = _
  after_results_simp <;> rfl
set_option maxHeartbeats 4000000 in
theorem W3_bias2 : W3 m ρ c (Proc.devRef .tc main_arg5) = bias2 m c := by
  refine Eq.trans ?_ (W2_bias2 m ρ c)
  show StableHlo.after hostOps1 (W2 m ρ c) (Proc.devRef .tc main_arg5) = _
  after_results_simp <;> rfl

theorem W4_src : W4 m ρ c (Proc.devRef .tc main_v1) = Cert.ReferenceIdeal.Read.val_main_v1 (F := Ideal) (edges m c) :=
  (W4_of_ne m ρ c main_v1 (by decide)).trans (W3_src m ρ c)
theorem W4_dst : W4 m ρ c (Proc.devRef .tc main_v3) = Cert.ReferenceIdeal.Read.val_main_v3 (F := Ideal) (edges m c) :=
  (W4_of_ne m ρ c main_v3 (by decide)).trans (W3_dst m ρ c)
theorem W4_norm : W4 m ρ c (Proc.devRef .tc main_v25) = Cert.ReferenceIdeal.Read.val_main_v25 (F := Ideal) (edges m c) :=
  (W4_of_ne m ρ c main_v25 (by decide)).trans (W3_norm m ρ c)
theorem W4_wt2 : W4 m ρ c (Proc.devRef .tc main_arg4) = wt2 m c :=
  (W4_of_ne m ρ c main_arg4 (by decide)).trans (W3_wt2 m ρ c)
theorem W4_bias2 : W4 m ρ c (Proc.devRef .tc main_arg5) = bias2 m c :=
  (W4_of_ne m ρ c main_arg5 (by decide)).trans (W3_bias2 m ρ c)
/-- The self-loop column was an input of the closing region: handed back as it was found. -/
theorem W4_self : W4 m ρ c (Proc.devRef .tc main_v27)
    = shapeCast S25000x1 (Cert.ReferenceIdeal.Read.val_main_v40 (F := Ideal) (edges m c)) Facts₀.shapeCasts_S25000_S25000x1 :=
  (W4_arr m ρ c 2).trans ((((dat1 (V3 m ρ) c).arrAt_in 2 rfl _).trans (A_eq1 (V3 m ρ) c 2)).trans (W3_self m ρ c))

/-! ## After the second projection -/

/-- The region's output is the product of the first layer's output and the second weights. -/
theorem W5_hw : W5 m ρ c (Proc.devRef .tc main_v44)
    = Cert.ReferenceIdeal.Read.val_main_v49 (F := Ideal) (feat m c) (edges m c) (wt1 m c) (bias1 m c) (wt2 m c) := by
  refine (W5_arr m ρ c 2).trans ((Cert.KernelIdeal.RegionValue.arr2 (V4 m ρ) c).trans ?_)
  rw [show V4 m ρ c main_v43 = _ from W4_h1 m ρ c, show V4 m ρ c main_arg4 = wt2 m c from W4_wt2 m ρ c]
  rfl

theorem W5_src : W5 m ρ c (Proc.devRef .tc main_v1) = Cert.ReferenceIdeal.Read.val_main_v1 (F := Ideal) (edges m c) :=
  (W5_of_ne m ρ c main_v1 (by decide)).trans (W4_src m ρ c)
theorem W5_dst : W5 m ρ c (Proc.devRef .tc main_v3) = Cert.ReferenceIdeal.Read.val_main_v3 (F := Ideal) (edges m c) :=
  (W5_of_ne m ρ c main_v3 (by decide)).trans (W4_dst m ρ c)
theorem W5_norm : W5 m ρ c (Proc.devRef .tc main_v25) = Cert.ReferenceIdeal.Read.val_main_v25 (F := Ideal) (edges m c) :=
  (W5_of_ne m ρ c main_v25 (by decide)).trans (W4_norm m ρ c)
theorem W5_self : W5 m ρ c (Proc.devRef .tc main_v27)
    = shapeCast S25000x1 (Cert.ReferenceIdeal.Read.val_main_v40 (F := Ideal) (edges m c)) Facts₀.shapeCasts_S25000_S25000x1 :=
  (W5_of_ne m ρ c main_v27 (by decide)).trans (W4_self m ρ c)
theorem W5_bias2 : W5 m ρ c (Proc.devRef .tc main_arg5) = bias2 m c :=
  (W5_of_ne m ρ c main_arg5 (by decide)).trans (W4_bias2 m ρ c)

/-! ## After the host stretch between the two regions of the layer -/

set_option maxHeartbeats 4000000 in
/-- The aggregate of the second product over the edges. -/
theorem W6_agg : W6 m ρ c (Proc.devRef .tc main_v57)
    = Cert.ReferenceIdeal.Read.val_main_v62 (F := Ideal) (feat m c) (edges m c) (wt1 m c) (bias1 m c) (wt2 m c) := by
  show StableHlo.after hostOps3 (W5 m ρ c) (Proc.devRef .tc main_v57) = _
  after_results_simp
  rw [W5_dst m ρ c, W5_hw m ρ c, W5_src m ρ c, W5_norm m ρ c]
  rfl

set_option maxHeartbeats 4000000 in
/-- The second bias as a row. -/
theorem W6_bias2 : W6 m ρ c (Proc.devRef .tc main_v58) = shapeCast S1x512 (bias2 m c) Facts₀.shapeCasts_S512_S1x512 := by
  show StableHlo.after hostOps3 (W5 m ρ c) (Proc.devRef .tc main_v58) = _
  after_results_simp
  rw [W5_bias2 m ρ c]
  rfl

set_option maxHeartbeats 4000000 in
theorem W6_hw : W6 m ρ c (Proc.devRef .tc main_v44)
    = Cert.ReferenceIdeal.Read.val_main_v49 (F := Ideal) (feat m c) (edges m c) (wt1 m c) (bias1 m c) (wt2 m c) := by
  refine Eq.trans ?_ (W5_hw m ρ c)
  show StableHlo.after hostOps3 (W5 m ρ c) (Proc.devRef .tc main_v44) = _
  after_results_simp <;> rfl

set_option maxHeartbeats 4000000 in
theorem W6_self : W6 m ρ c (Proc.devRef .tc main_v27)
    = shapeCast S25000x1 (Cert.ReferenceIdeal.Read.val_main_v40 (F := Ideal) (edges m c)) Facts₀.shapeCasts_S25000_S25000x1 := by
  refine Eq.trans ?_ (W5_self m ρ c)
  show StableHlo.after hostOps3 (W5 m ρ c) (Proc.devRef .tc main_v27) = _
  after_results_simp <;> rfl

/-! ## After the layer's closing region -/

/-- The second layer's output is the reference's: max((agg + h₁·W₂ · d) + b₂, 0) at every node and feature. -/
theorem W7_h2 : W7 m ρ c (Proc.devRef .tc main_v59)
    = Cert.ReferenceIdeal.Read.val_main_v71 (F := Ideal) (feat m c) (edges m c) (wt1 m c) (bias1 m c) (wt2 m c) (bias2 m c) := by
  refine (W7_arr m ρ c 4).trans ((Cert.KernelIdeal.RegionValue.arr3 (V6 m ρ) c).trans ?_)
  rw [show V6 m ρ c main_v57 = _ from W6_agg m ρ c, show V6 m ρ c main_v44 = _ from W6_hw m ρ c,
    show V6 m ρ c main_v27 = _ from W6_self m ρ c, show V6 m ρ c main_v58 = _ from W6_bias2 m ρ c]
  refine (Cert.ReluLayer.reluLayer_eq_host _ _ _ _ _ _ Cert.ReferenceIdeal.Facts₀.bcast_S25000_S25000x1_0
    Cert.ReferenceIdeal.Facts₀.bcast_S25000x1_S25000x512_0_1 Cert.ReferenceIdeal.Facts₀.bcast_S512_S1x512_1
    Cert.ReferenceIdeal.Facts₀.bcast_S1x512_S25000x512_0_1 Cert.ReferenceIdeal.Facts₀.bcast_S_S25000x512).trans ?_
  rfl

end Cert.KernelIdeal.Boundary

end
-- ==== Proof.Heads.lean ====
import proofs.«135141_j11647951306787_1_alg».proof.Proof.Layer2
import Idealize.ShloMosaic.Lib.Pipeline.Value
import Idealize.ShloMosaic.Lib.StableHlo.Run
import Idealize.ShloMosaic.PureOps.Ideal.Laws

/-!
The two output heads of the kernel program. The last host stretch is the reference's own: each head is the second
layer's output times a column of weights plus a scalar bias, laid out as one value per node. Its operands are the
second layer's output, which is the reference's, and four arguments no segment writes.
-/

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 4000000 in
/-- An argument the last stretch does not write is, before it, what it is after it: as launched. -/
theorem W7_arg6 : W7 m ρ c (Proc.devRef .tc main_arg6) = m ((c : Thread nD τ).loc main_arg6) := by
  refine Eq.trans (Eq.symm ?_) (W8_main_arg6 m ρ c)
  show StableHlo.after hostOps4 (W7 m ρ c) (Proc.devRef .tc main_arg6) = _
  after_results_simp <;> rfl
set_option maxHeartbeats 4000000 in
theorem W7_arg7 : W7 m ρ c (Proc.devRef .tc main_arg7) = m ((c : Thread nD τ).loc main_arg7) := by
  refine Eq.trans (Eq.symm ?_) (W8_main_arg7 m ρ c)
  show StableHlo.after hostOps4 (W7 m ρ c) (Proc.devRef .tc main_arg7) = _
  after_results_simp <;> rfl
set_option maxHeartbeats 4000000 in
theorem W7_arg8 : W7 m ρ c (Proc.devRef .tc main_arg8) = m ((c : Thread nD τ).loc main_arg8) := by
  refine Eq.trans (Eq.symm ?_) (W8_main_arg8 m ρ c)
  show StableHlo.after hostOps4 (W7 m ρ c) (Proc.devRef .tc main_arg8) = _
  after_results_simp <;> rfl
set_option maxHeartbeats 4000000 in
theorem W7_arg9 : W7 m ρ c (Proc.devRef .tc main_arg9) = m ((c : Thread nD τ).loc main_arg9) := by
  refine Eq.trans (Eq.symm ?_) (W8_main_arg9 m ρ c)
  show StableHlo.after hostOps4 (W7 m ρ c) (Proc.devRef .tc main_arg9) = _
  after_results_simp <;> rfl

set_option maxHeartbeats 4000000 in
/-- The first head is the reference's first result, as a function of the eight arguments it depends on. -/
theorem W8_head0 : W8 m ρ c (Proc.devRef .tc main_v64)
    = Cert.ReferenceIdeal.Read.val_main_v76 (F := Ideal) (feat m c) (edges m c) (wt1 m c) (bias1 m c) (wt2 m c) (bias2 m c)
        (m ((c : Thread nD τ).loc main_arg6)) (m ((c : Thread nD τ).loc main_arg7)) := by
  show StableHlo.after hostOps4 (W7 m ρ c) (Proc.devRef .tc main_v64) = _
  after_results_simp
  rw [W7_h2 m ρ c, W7_arg6 m ρ c, W7_arg7 m ρ c]
  rfl

set_option maxHeartbeats 4000000 in
/-- The second head is the reference's second result. -/
theorem W8_head1 : W8 m ρ c (Proc.devRef .tc main_v69)
    = Cert.ReferenceIdeal.Read.val_main_v81 (F := Ideal) (feat m c) (edges m c) (wt1 m c) (bias1 m c) (wt2 m c) (bias2 m c)
        (m ((c : Thread nD τ).loc main_arg8)) (m ((c : Thread nD τ).loc main_arg9)) := by
  show StableHlo.after hostOps4 (W7 m ρ c) (Proc.devRef .tc main_v69) = _
  after_results_simp
  rw [W7_h2 m ρ c, W7_arg8 m ρ c, W7_arg9 m ρ c]
  rfl

end Cert.KernelIdeal.Boundary

end
-- ==== Proof.lean ====
/-
  A two-layer graph convolution with two linear heads, over 25000 nodes, 200000 edges and 512 features.

  Both programs first read the edge list's two rows (sources and targets), count each node's in-degree plus one by a
  scatter-add of ones, take its inverse square root r, weight edge e by r[src e] · r[dst e] and node n by r[n]².
  A layer maps h to

      max ( (agg + (h·W) · r²) + b , 0 ),     agg[n, :] = Σ over edges e with dst e = n of (h·W)[src e, :] · weight e,

  and the heads are h₂·Wₒ + bₒ and h₂·W_w + b_w, one value per node.

  The kernel program computes each product h·W in a pipelined region, 25 row tiles of 1000 nodes, each tile the
  matrix product of the tile's rows with the whole weight matrix into a zero accumulator (the change of float format
  before the product is the identity over the extended reals); it computes each layer's closing step in a second
  region, tile by tile, from the aggregate, the product, the column r² and the bias row; the gathers, the scatter-adds
  and the heads it leaves to the host, in the reference's own operations. The reference computes everything on the
  host. Over the extended reals the two are the same tree of sums, products and maxima at every node and feature:
  same grouping of the two sums, same zero; only the tiling and the way the small operands are broadcast differ. No
  law that needs finite values is used, so the precondition is never opened.

  The proof follows the kernel program's eight segments. Each region's output array is one whole-array function of
  the arrays the region finds (the tiles cover the array); each host stretch is read as the composition of its
  operations; and at every boundary the buffers that matter are shown to hold the reference's own stage of the
  arguments. The shared host chains are carried as they stand and never unfolded.
-/
import proofs.«135141_j11647951306787_1_alg».proof.Defs
import proofs.«135141_j11647951306787_1_alg».proof.Proof.Gen.Kernel
import proofs.«135141_j11647951306787_1_alg».proof.Proof.Gen.Kernel.Skeleton
import proofs.«135141_j11647951306787_1_alg».proof.Proof.Gen.Kernel.Launch
import proofs.«135141_j11647951306787_1_alg».proof.Proof.Gen.Kernel.Points
import proofs.«135141_j11647951306787_1_alg».proof.Proof.Gen.Kernel.Frame
import proofs.«135141_j11647951306787_1_alg».proof.Proof.Gen.KernelIdeal
import proofs.«135141_j11647951306787_1_alg».proof.Proof.Gen.KernelIdeal.Skeleton
import proofs.«135141_j11647951306787_1_alg».proof.Proof.Gen.KernelIdeal.Launch
import proofs.«135141_j11647951306787_1_alg».proof.Proof.Gen.KernelIdeal.Points
import proofs.«135141_j11647951306787_1_alg».proof.Proof.Gen.KernelIdeal.Frame
import proofs.«135141_j11647951306787_1_alg».proof.Proof.Gen.ReferenceIdeal
import proofs.«135141_j11647951306787_1_alg».proof.Proof.Gen.ReferenceIdeal.Run
import proofs.«135141_j11647951306787_1_alg».proof.Proof.Gen.ReferenceIdeal.Read
import proofs.«135141_j11647951306787_1_alg».proof.Proof.Gen.Pre_finite_inputs
import proofs.«135141_j11647951306787_1_alg».proof.Proof.RunValue
import proofs.«135141_j11647951306787_1_alg».proof.Proof.Heads
import Idealize.ShloMosaic.Adequacy
import Idealize.ShloMosaic.Init

noncomputable section

namespace Cert.Proof

open Idealize.ShloMosaic Idealize.ShloMosaic.TcCoe Idealize.SL.Sem

/-- The word-level kernel program runs to the end without a fault and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Over the extended reals, from memories that agree on the ten arguments, both programs end with the same two
    arrays of per-node values: the kernel program's last boundary holds the reference's two stages of the arguments
    (the two heads), and the reference's run ends at the same stages. -/
theorem algebraic : Cert.algebraic_KernelIdeal_ReferenceIdeal := by
  intro m ρ m' ρ' _ hagree
  have hk := (θ_run Cert.KernelIdeal.defs _ _).mono
    (fun r h (c : Dev Cert.KernelIdeal.nD) => (⟨(h c).1.trans (Cert.KernelIdeal.Boundary.W8_head0 m ρ c), (h c).2.1.trans (Cert.KernelIdeal.Boundary.W8_head1 m ρ c), (h c).2.2⟩ :
      r.2.mem ((c.tc : Thread Cert.KernelIdeal.nD Cert.KernelIdeal.τ).loc Cert.KernelIdeal.main_v64) = _ ∧ r.2.mem ((c.tc : Thread Cert.KernelIdeal.nD Cert.KernelIdeal.τ).loc Cert.KernelIdeal.main_v69) = _ ∧ _))
    (Cert.KernelIdeal.RunValue.run_results (F := Ideal) m ρ)
  refine ⟨_, _, hk, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨e0, e1, e2, e3, e4, e5, e6, e7, e8, e9⟩ := hagree c
    rw [Cert.ReferenceIdeal.Read.val_main_v76_eq, e0, e1, e2, e3, e4, e5, e6, e7]
  · obtain ⟨e0, e1, e2, e3, e4, e5, e6, e7, e8, e9⟩ := hagree c
    rw [Cert.ReferenceIdeal.Read.val_main_v81_eq, e0, e1, e2, e3, e4, e5, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
